-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x256 : Shape := ⟨2, ![10000, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x64 : Shape := ⟨2, ![256, 64]⟩
abbrev S64 : Shape := ⟨1, ![64]⟩
abbrev S64x1 : Shape := ⟨2, ![64, 1]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_

variable [Facts]

def fn_part2 {F : FTy → Type} [FloatOps F] (main_arg7 : FVec F S64 .f32) (main_arg8 : FVec F S64x1 .f32) (main_arg9 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S128x1 .f32) (main_arg5 : FVec F S1 .f32) (main_arg6 : FVec F S256x64 .f32) (main_arg7 : FVec F S64 .f32) (main_arg8 : FVec F S64x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S256x64 .f32 := Host.absf main_arg6
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x10000 .f32) (main_arg1 : FVec F S10000x256 .f32) (main_arg2 : FVec F S256x128 .f32) (main_arg3 : FVec F S128 .f32) (main_arg4 : FVec F S128x1 .f32) (main_arg5 : FVec F S1 .f32) (main_arg6 : FVec F S256x64 .f32) (main_arg7 : FVec F S64 .f32) (main_arg8 : FVec F S64x1 .f32) (main_arg9 : FVec F S1 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x10000 : Shape := ⟨2, ![10000, 10000]⟩
abbrev S10000x256 : Shape := ⟨2, ![10000, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x64 : Shape := ⟨2, ![256, 64]⟩
abbrev S64 : Shape := ⟨1, ![64]⟩
abbrev S64x1 : Shape := ⟨2, ![64, 1]⟩
abbrev S256x192 : Shape := ⟨2, ![256, 192]⟩
abbrev S192 : Shape := ⟨1, ![192]⟩
abbrev S1x192 : Shape := ⟨2, ![1, 192]⟩
abbrev S_ : Shape := ⟨0, ![]⟩
abbrev S128x2 : Shape := ⟨2, ![128, 2]⟩
abbrev S64x2 : Shape := ⟨2, ![64, 2]⟩
abbrev S192x2 : Shape := ⟨2, ![192, 2]⟩
abbrev S2 : Shape := ⟨1, ![2]⟩
abbrev S1x2 : Shape := ⟨2, ![1, 2]⟩
abbrev S10000x192 : Shape := ⟨2, ![10000, 192]⟩
abbrev S2000x256 : Shape := ⟨2, ![2000, 256]⟩
abbrev S2000x192 : Shape := ⟨2, ![2000, 192]⟩
abbrev S10000x2 : Shape := ⟨2, ![10000, 2]⟩
abbrev S200x10000 : Shape := ⟨2, ![200, 10000]⟩
abbrev S200x2 : Shape := ⟨2, ![200, 2]⟩
abbrev S200x192 : Shape := ⟨2, ![200, 192]⟩
abbrev S400x10000 : Shape := ⟨2, ![400, 10000]⟩
abbrev S400x2 : Shape := ⟨2, ![400, 2]⟩
abbrev S10000x1 : Shape := ⟨2, ![10000, 1]⟩

abbrev nBuf : Space → Nat
  | .hbm => 27
  | .vmem => 18
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S256x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S256x192, .f32⟩
  | .hbm, ⟨11, _⟩ => ⟨S192, .f32⟩
  | .hbm, ⟨12, _⟩ => ⟨S1x192, .f32⟩
  | .hbm, ⟨13, _⟩ => ⟨S_, .f32⟩
  | .hbm, ⟨14, _⟩ => ⟨S128x1, .f32⟩
  | .hbm, ⟨15, _⟩ => ⟨S128x2, .f32⟩
  | .hbm, ⟨16, _⟩ => ⟨S_, .f32⟩
  | .hbm, ⟨17, _⟩ => ⟨S64x1, .f32⟩
  | .hbm, ⟨18, _⟩ => ⟨S64x2, .f32⟩
  | .hbm, ⟨19, _⟩ => ⟨S192x2, .f32⟩
  | .hbm, ⟨20, _⟩ => ⟨S2, .f32⟩
  | .hbm, ⟨21, _⟩ => ⟨S1x2, .f32⟩
  | .hbm, ⟨22, _⟩ => ⟨S10000x192, .bf16⟩
  | .hbm, ⟨23, _⟩ => ⟨S10000x2, .f32⟩
  | .hbm, ⟨24, _⟩ => ⟨S10000x2, .f32⟩
  | .hbm, ⟨25, _⟩ => ⟨S10000x1, .f32⟩
  | .hbm, ⟨26, _⟩ => ⟨S10000x1, .f32⟩
  | .local _ .vmem, ⟨0, _⟩ => ⟨S2000x256, .f32⟩
  | .local _ .vmem, ⟨1, _⟩ => ⟨S2000x256, .f32⟩
  | .local _ .vmem, ⟨2, _⟩ => ⟨S256x192, .f32⟩
  | .local _ .vmem, ⟨3, _⟩ => ⟨S2000x192, .bf16⟩
  | .local _ .vmem, ⟨4, _⟩ => ⟨S2000x192, .bf16⟩
  | .local _ .vmem, ⟨5, _⟩ => ⟨S200x10000, .f32⟩
  | .local _ .vmem, ⟨6, _⟩ => ⟨S200x10000, .f32⟩
  | .local _ .vmem, ⟨7, _⟩ => ⟨S10000x192, .bf16⟩
  | .local _ .vmem, ⟨8, _⟩ => ⟨S1x192, .f32⟩
  | .local _ .vmem, ⟨9, _⟩ => ⟨S192x2, .f32⟩
  | .local _ .vmem, ⟨10, _⟩ => ⟨S200x2, .f32⟩
  | .local _ .vmem, ⟨11, _⟩ => ⟨S200x2, .f32⟩
  | .local _ .vmem, ⟨12, _⟩ => ⟨S400x10000, .f32⟩
  | .local _ .vmem, ⟨13, _⟩ => ⟨S400x10000, .f32⟩
  | .local _ .vmem, ⟨14, _⟩ => ⟨S10000x2, .f32⟩
  | .local _ .vmem, ⟨15, _⟩ => ⟨S1x2, .f32⟩
  | .local _ .vmem, ⟨16, _⟩ => ⟨S400x2, .f32⟩
  | .local _ .vmem, ⟨17, _⟩ => ⟨S400x2, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S192x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S256x128_S256x64_S256x192_d1 : Shape.Concatenates [S256x128, S256x64] S256x192 1
  concatenates_S128_S64_S192_d0 : Shape.Concatenates [S128, S64] S192 0
  bcast_S192_S1x192_1 : S192.BroadcastsInDim S1x192 (![1] : Fin 1 → Fin S1x192.rank)
  bcast_S_S128x1 : S_.BroadcastsInDim S128x1 (![] : Fin 0 → Fin S128x1.rank)
  concatenates_S128x1_S128x1_S128x2_d1 : Shape.Concatenates [S128x1, S128x1] S128x2 1
  bcast_S_S64x1 : S_.BroadcastsInDim S64x1 (![] : Fin 0 → Fin S64x1.rank)
  concatenates_S64x1_S64x1_S64x2_d1 : Shape.Concatenates [S64x1, S64x1] S64x2 1
  concatenates_S128x2_S64x2_S192x2_d0 : Shape.Concatenates [S128x2, S64x2] S192x2 0
  concatenates_S1_S1_S2_d0 : Shape.Concatenates [S1, S1] S2 0
  bcast_S2_S1x2_1 : S2.BroadcastsInDim S1x2 (![1] : Fin 1 → Fin S1x2.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S2000x192_S2000x192_0_0 : ∀ a, (![0, 0] : Fin 2 → Nat) a + S2000x192.size a ≤ S2000x192.size a
  h_S2000x192 : 0 < S2000x192.numel
  packedbf16_S2000x192_S2000x192_0_0 : (Rect.unit (s := S2000x192) ![0, 0] S2000x192.size inb_S2000x192_S2000x192_0_0).PackedRows (EltTy.packing .bf16)
  inb_S200x10000_S200x10000_0_0 : ∀ a, (![0, 0] : Fin 2 → Nat) a + S200x10000.size a ≤ S200x10000.size a
  h_S200x10000 : 0 < S200x10000.numel
  inb_S10000x192_S10000x192_0_0 : ∀ a, (![0, 0] : Fin 2 → Nat) a + S10000x192.size a ≤ S10000x192.size a
  h_S10000x192 : 0 < S10000x192.numel
  shapeCasts_S10000x192_S10000x192 : S10000x192.ShapeCasts S10000x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S200x192 : S1x192.Broadcasts S200x192
  inb_S192x2_S192x2_0_0 : ∀ a, (![0, 0] : Fin 2 → Nat) a + S192x2.size a ≤ S192x2.size a
  h_S192x2 : 0 < S192x2.numel
  shapeCasts_S192x2_S192x2 : S192x2.ShapeCasts S192x2
  inb_S200x2_S200x2_0_0 : ∀ a, (![0, 0] : Fin 2 → Nat) a + S200x2.size a ≤ S200x2.size a
  h_S200x2 : 0 < S200x2.numel
  inb_S400x10000_S400x10000_0_0 : ∀ a, (![0, 0] : Fin 2 → Nat) a + S400x10000.size a ≤ S400x10000.size a
  h_S400x10000 : 0 < S400x10000.numel
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S400x2 : S1x2.Broadcasts S400x2
  inb_S400x2_S400x2_0_0 : ∀ a, (![0, 0] : Fin 2 → Nat) a + S400x2.size a ≤ S400x2.size a
  h_S400x2 : 0 < S400x2.numel
  slices_S10000x2_S10000x1_0_1 : S10000x2.Slices ![0, 1] S10000x1
  slices_S10000x2_S10000x1_0_0 : S10000x2.Slices ![0, 0] S10000x1
  dot_S2000x256_S256x192_S2000x192_1_0_0_1_n_n_wf : DotDims.WF S2000x256 S256x192 S2000x192 [1] [0] [0] [1] [] []
  dot_S200x10000_S10000x192_S200x192_1_0_0_1_n_n_wf : DotDims.WF S200x10000 S10000x192 S200x192 [1] [0] [0] [1] [] []
  dot_S200x192_S192x2_S200x2_1_0_0_1_n_n_wf : DotDims.WF S200x192 S192x2 S200x2 [1] [0] [0] [1] [] []
  dot_S400x10000_S10000x2_S400x2_1_0_0_1_n_n_wf : DotDims.WF S400x10000 S10000x2 S400x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x192.size a ≤ S256x192.size a
  hwx0_1 : ∀ i : grid0.Coords, EltTy.bits .f32 = 32 ∨ (Rect.block (s := S256x192) S256x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x192.size a ≤ S10000x192.size a
  hwx0_2 : ∀ i : grid0.Coords, EltTy.bits .bf16 = 32 ∨ (Rect.block (s := S10000x192) S2000x192.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x192.size a ≤ S10000x192.size a
  hwx1_1 : ∀ i : grid1.Coords, EltTy.bits .bf16 = 32 ∨ (Rect.block (s := S10000x192) S10000x192.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x192.size a ≤ S1x192.size a
  hwx1_2 : ∀ i : grid1.Coords, EltTy.bits .f32 = 32 ∨ (Rect.block (s := S1x192) S1x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S192x2.size a ≤ S192x2.size a
  hwx1_3 : ∀ i : grid1.Coords, EltTy.bits .f32 = 32 ∨ (Rect.block (s := S192x2) S192x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x2.size a ≤ S10000x2.size a
  hwx1_4 : ∀ i : grid1.Coords, EltTy.bits .f32 = 32 ∨ (Rect.block (s := S10000x2) S200x2.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x2.size a ≤ S10000x2.size a
  hwx2_1 : ∀ i : grid2.Coords, EltTy.bits .f32 = 32 ∨ (Rect.block (s := S10000x2) S10000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x2.size a ≤ S10000x2.size a
  hwx2_3 : ∀ i : grid2.Coords, EltTy.bits .f32 = 32 ∨ (Rect.block (s := S10000x2) S400x2.size (cc2_transform_3 i) (hinb2_3 i)).WholeWords (EltTy.packing .f32)

variable [Facts₀]

def dot_S2000x256_S256x192_S2000x192_1_0_0_1_n_n : DotDims S2000x256 S256x192 S2000x192 where
  lhsContracting := [1]
  rhsContracting := [0]
  lhsNonContracting := [0]
  rhsNonContracting := [1]
  lhsBatch := []
  rhsBatch := []
  wf := dot_S2000x256_S256x192_S2000x192_1_0_0_1_n_n_wf
def dot_S200x10000_S10000x192_S200x192_1_0_0_1_n_n : DotDims S200x10000 S10000x192 S200x192 where
  lhsContracting := [1]
  rhsContracting := [0]
  lhsNonContracting := [0]
  rhsNonContracting := [1]
  lhsBatch := []
  rhsBatch := []
  wf := dot_S200x10000_S10000x192_S200x192_1_0_0_1_n_n_wf
def dot_S200x192_S192x2_S200x2_1_0_0_1_n_n : DotDims S200x192 S192x2 S200x2 where
  lhsContracting := [1]
  rhsContracting := [0]
  lhsNonContracting := [0]
  rhsNonContracting := [1]
  lhsBatch := []
  rhsBatch := []
  wf := dot_S200x192_S192x2_S200x2_1_0_0_1_n_n_wf
def dot_S400x10000_S10000x2_S400x2_1_0_0_1_n_n : DotDims S400x10000 S10000x2 S400x2 where
  lhsContracting := [1]
  rhsContracting := [0]
  lhsNonContracting := [0]
  rhsNonContracting := [1]
  lhsBatch := []
  rhsBatch := []
  wf := dot_S400x10000_S10000x2_S400x2_1_0_0_1_n_n_wf

abbrev win0_0 : Pipeline.Window sig grid0 :=
  Pipeline.Window.ofSpec (Memref.whole main_arg1) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2000x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S10000x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S192x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S200x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S10000x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S400x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x10000 : Shape := ⟨2, ![10000, 10000]⟩
abbrev S10000x256 : Shape := ⟨2, ![10000, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x64 : Shape := ⟨2, ![256, 64]⟩
abbrev S64 : Shape := ⟨1, ![64]⟩
abbrev S64x1 : Shape := ⟨2, ![64, 1]⟩
abbrev S10000x128 : Shape := ⟨2, ![10000, 128]⟩
abbrev S1x128 : Shape := ⟨2, ![1, 128]⟩
abbrev S_ : Shape := ⟨0, ![]⟩
abbrev S10000x1 : Shape := ⟨2, ![10000, 1]⟩
abbrev S1x1 : Shape := ⟨2, ![1, 1]⟩
abbrev S10000x64 : Shape := ⟨2, ![10000, 64]⟩
abbrev S1x64 : Shape := ⟨2, ![1, 64]⟩

abbrev nBuf : Space → Nat
  | .hbm => 36
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S256x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x1, .f32⟩
  | .hbm, ⟨19, _⟩ => ⟨S10000x1, .f32⟩
  | .hbm, ⟨20, _⟩ => ⟨S1x1, .f32⟩
  | .hbm, ⟨21, _⟩ => ⟨S10000x1, .f32⟩
  | .hbm, ⟨22, _⟩ => ⟨S10000x1, .f32⟩
  | .hbm, ⟨23, _⟩ => ⟨S10000x64, .f32⟩
  | .hbm, ⟨24, _⟩ => ⟨S10000x64, .f32⟩
  | .hbm, ⟨25, _⟩ => ⟨S1x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000x64, .f32⟩
  | .hbm, ⟨30, _⟩ => ⟨S10000x64, .f32⟩
  | .hbm, ⟨31, _⟩ => ⟨S10000x1, .f32⟩
  | .hbm, ⟨32, _⟩ => ⟨S10000x1, .f32⟩
  | .hbm, ⟨33, _⟩ => ⟨S1x1, .f32⟩
  | .hbm, ⟨34, _⟩ => ⟨S10000x1, .f32⟩
  | .hbm, ⟨35, _⟩ => ⟨S10000x1, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_cst : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []
  dot_S10000x128_S128x1_S10000x1_1_0_0_1_n_n_wf : DotDims.WF S10000x128 S128x1 S10000x1 [1] [0] [0] [1] [] []
  dot_S10000x10000_S10000x1_S10000x1_1_0_0_1_n_n_wf : DotDims.WF S10000x10000 S10000x1 S10000x1 [1] [0] [0] [1] [] []
  dot_S10000x256_S256x64_S10000x64_1_0_0_1_n_n_wf : DotDims.WF S10000x256 S256x64 S10000x64 [1] [0] [0] [1] [] []
  dot_S10000x10000_S10000x64_S10000x64_1_0_0_1_n_n_wf : DotDims.WF S10000x10000 S10000x64 S10000x64 [1] [0] [0] [1] [] []
  dot_S10000x64_S64x1_S10000x1_1_0_0_1_n_n_wf : DotDims.WF S10000x64 S64x1 S10000x1 [1] [0] [0] [1] [] []

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S10000x10000_S10000x1_S10000x1_1_0_0_1_n_n : DotDims S10000x10000 S10000x1 S10000x1 where
  lhsContracting := [1]
  rhsContracting := [0]
  lhsNonContracting := [0]
  rhsNonContracting := [1]
  lhsBatch := []
  rhsBatch := []
  wf := dot_S10000x10000_S10000x1_S10000x1_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

class Facts : Prop extends Facts₀ where

variable [Facts]
-- ==== Proof.GcnSpec.lean ====
/-
  Two graph-convolution branches over one dense adjacency, as plain functions on the extended reals.

  A matrix is a function of a row and a column. One branch of the reference is
      r ↦ Σ_j A r j · (Σ_k max((Σ_l A j l · (Σ_d X l d · W1 d k)) + b1 k, 0) · W2 k 0) + b2,
  once with a hidden width 128 and once with 64. The fused form runs both at once: the first-layer weights side by
  side (hidden width 192 = 128 + 64), the second-layer weights block-diagonal in a 192 × 2 matrix whose other two
  blocks are zero, and the two output biases side by side. A sum over the 192 hidden units splits into the first 128
  and the last 64; in each column of the block-diagonal matrix one of the two parts is a sum of products with zero,
  which vanishes on the extended reals as well (0 · ±∞ = 0 there), and the other part is the branch's own sum. No
  finiteness of the inputs is used.
-/
import Idealize.ShloMosaic.Lib.ValueIdx
import Mathlib.Data.EReal.Basic
import Mathlib.Algebra.BigOperators.Fin

noncomputable section

open scoped BigOperators
open Idealize.ShloMosaic

namespace Cert.Gcn

/-! ## Arrays as matrices -/

/-- The index of a rank-2 array at row `r`, column `c`. -/
abbrev rc {n0 n1 : Nat} (r : Fin n0) (c : Fin n1) : (⟨2, ![n0, n1]⟩ : Shape).Idx := ValueIdx.ix2 r c

/-- The row of a rank-2 index. -/
abbrev row {n0 n1 : Nat} (j : (⟨2, ![n0, n1]⟩ : Shape).Idx) : Fin n0 := ⟨(j 0).val, ValueIdx.idx2_lt0 j⟩
/-- The column of a rank-2 index. -/
abbrev col {n0 n1 : Nat} (j : (⟨2, ![n0, n1]⟩ : Shape).Idx) : Fin n1 := ⟨(j 1).val, ValueIdx.idx2_lt1 j⟩

theorem rc_row_col {n0 n1 : Nat} (j : (⟨2, ![n0, n1]⟩ : Shape).Idx) : rc (row j) (col j) = j := by
  funext a; match a with | ⟨0, _⟩ => rfl | ⟨1, _⟩ => rfl

/-- A rank-2 array as a function of row and column. -/
abbrev cur {n0 n1 : Nat} {α : Type} (x : (⟨2, ![n0, n1]⟩ : Shape).Idx → α) : Fin n0 → Fin n1 → α := fun r c => x (rc r c)
/-- A rank-1 array as a function of its position. -/
abbrev cur1 {n : Nat} {α : Type} (x : (⟨1, ![n]⟩ : Shape).Idx → α) : Fin n → α := fun k => x (ValueIdx.ix1 k)

/-! ## The layers -/

/-- The matrix product. -/
def mm {n k p : Nat} (A : Fin n → Fin k → EReal) (B : Fin k → Fin p → EReal) : Fin n → Fin p → EReal :=
  fun r c => ∑ l : Fin k, A r l * B l c

/-- The hidden layer projected: `relu(A · T + b) · W2`. -/
def hidden {n h p : Nat} (A : Fin n → Fin n → EReal) (T : Fin n → Fin h → EReal) (b : Fin h → EReal)
    (W2 : Fin h → Fin p → EReal) : Fin n → Fin p → EReal :=
  fun r c => ∑ k : Fin h, max (mm A T r k + b k) 0 * W2 k c

/-- The output layer: `A · U + b2`. -/
def out {n p : Nat} (A : Fin n → Fin n → EReal) (U : Fin n → Fin p → EReal) (b2 : Fin p → EReal) : Fin n → Fin p → EReal :=
  fun r c => mm A U r c + b2 c

/-- A whole two-layer network of hidden width `h` and `p` outputs. -/
def net {n d h p : Nat} (A : Fin n → Fin n → EReal) (X : Fin n → Fin d → EReal) (W1 : Fin d → Fin h → EReal) (b1 : Fin h → EReal)
    (W2 : Fin h → Fin p → EReal) (b2 : Fin p → EReal) : Fin n → Fin p → EReal :=
  out A (hidden A (mm X W1) b1 W2) b2

/-! ## The fused parameters -/

/-- Two weight matrices side by side: 128 columns, then 64. -/
def sideBySide {d : Nat} (We : Fin d → Fin 128 → EReal) (Wg : Fin d → Fin 64 → EReal) : Fin d → Fin 192 → EReal :=
  fun r k => if h : k.val < 128 then We r ⟨k.val, h⟩ else Wg r ⟨k.val - 128, by have := k.isLt; omega⟩

/-- Two bias vectors end to end: 128 entries, then 64. -/
def endToEnd (be : Fin 128 → EReal) (bg : Fin 64 → EReal) : Fin 192 → EReal :=
  fun k => if h : k.val < 128 then be ⟨k.val, h⟩ else bg ⟨k.val - 128, by have := k.isLt; omega⟩

/-- Two one-column matrices on the diagonal of a 192 × 2 matrix, zero elsewhere. -/
def blockDiag (We2 : Fin 128 → Fin 1 → EReal) (Wg2 : Fin 64 → Fin 1 → EReal) : Fin 192 → Fin 2 → EReal :=
  fun k c => if h : k.val < 128 then (if c.val = 0 then We2 ⟨k.val, h⟩ 0 else 0)
    else (if c.val = 0 then 0 else Wg2 ⟨k.val - 128, by have := k.isLt; omega⟩ 0)

/-- Two scalars as a pair. -/
def pair (be2 bg2 : EReal) : Fin 2 → EReal := fun c => if c.val = 0 then be2 else bg2

/-! ## The law -/

/-- A sum over 192 positions is the sum over the first 128 plus the sum over the last 64. -/
theorem sum_split (f : Fin 192 → EReal) :
    ∑ k : Fin 192, f k = (∑ k : Fin 128, f ⟨k.val, by have := k.isLt; omega⟩) + ∑ k : Fin 64, f ⟨128 + k.val, by have := k.isLt; omega⟩ := by
  have h := Fin.sum_univ_add (M := EReal) (a := 128) (b := 64) f
  exact h

variable {n d : Nat} (A : Fin n → Fin n → EReal) (X : Fin n → Fin d → EReal)
  (We : Fin d → Fin 128 → EReal) (Wg : Fin d → Fin 64 → EReal) (be : Fin 128 → EReal) (bg : Fin 64 → EReal)
  (We2 : Fin 128 → Fin 1 → EReal) (Wg2 : Fin 64 → Fin 1 → EReal) (be2 bg2 : EReal)

/-! The fused parameters read in their first 128 and their last 64 hidden positions. -/

theorem sideBySide_lo (r : Fin d) (k : Fin 128) (hk : k.val < 192) : sideBySide We Wg r ⟨k.val, hk⟩ = We r k := by
  unfold sideBySide; rw [dif_pos k.isLt]
theorem sideBySide_hi (r : Fin d) (k : Fin 64) (hk : 128 + k.val < 192) : sideBySide We Wg r ⟨128 + k.val, hk⟩ = Wg r k := by
  unfold sideBySide
  rw [dif_neg (show ¬ (128 + k.val < 128) by omega)]
  exact congrArg (Wg r) (Fin.ext (by show 128 + k.val - 128 = k.val; omega))
theorem endToEnd_lo (k : Fin 128) (hk : k.val < 192) : endToEnd be bg ⟨k.val, hk⟩ = be k := by
  unfold endToEnd; rw [dif_pos k.isLt]
theorem endToEnd_hi (k : Fin 64) (hk : 128 + k.val < 192) : endToEnd be bg ⟨128 + k.val, hk⟩ = bg k := by
  unfold endToEnd
  rw [dif_neg (show ¬ (128 + k.val < 128) by omega)]
  exact congrArg bg (Fin.ext (by show 128 + k.val - 128 = k.val; omega))
theorem blockDiag_lo0 (k : Fin 128) (hk : k.val < 192) : blockDiag We2 Wg2 ⟨k.val, hk⟩ 0 = We2 k 0 := by
  unfold blockDiag; rw [dif_pos k.isLt]; exact if_pos rfl
theorem blockDiag_lo1 (k : Fin 128) (hk : k.val < 192) : blockDiag We2 Wg2 ⟨k.val, hk⟩ 1 = 0 := by
  unfold blockDiag; rw [dif_pos k.isLt, if_neg (by decide)]
theorem blockDiag_hi0 (k : Fin 64) (hk : 128 + k.val < 192) : blockDiag We2 Wg2 ⟨128 + k.val, hk⟩ 0 = 0 := by
  unfold blockDiag; rw [dif_neg (show ¬ (128 + k.val < 128) by omega)]; exact if_pos rfl
theorem blockDiag_hi1 (k : Fin 64) (hk : 128 + k.val < 192) : blockDiag We2 Wg2 ⟨128 + k.val, hk⟩ 1 = Wg2 k 0 := by
  unfold blockDiag
  rw [dif_neg (show ¬ (128 + k.val < 128) by omega), if_neg (by decide)]
  exact congrArg (fun t => Wg2 t 0) (Fin.ext (by show 128 + k.val - 128 = k.val; omega))

/-- Column 0 of the fused hidden layer: the last 64 hidden units meet zeros, the first 128 are the first branch's. -/
theorem hidden_fused_col0 (j : Fin n) :
    hidden A (mm X (sideBySide We Wg)) (endToEnd be bg) (blockDiag We2 Wg2) j 0 = hidden A (mm X We) be We2 j 0 := by
  unfold hidden
  rw [sum_split]
  simp only [mm, sideBySide_lo, endToEnd_lo, blockDiag_lo0, blockDiag_hi0, mul_zero, Finset.sum_const_zero, add_zero]

/-- Column 1 of the fused hidden layer: the first 128 hidden units meet zeros, the last 64 are the second branch's. -/
theorem hidden_fused_col1 (j : Fin n) :
    hidden A (mm X (sideBySide We Wg)) (endToEnd be bg) (blockDiag We2 Wg2) j 1 = hidden A (mm X Wg) bg Wg2 j 0 := by
  unfold hidden
  rw [sum_split]
  simp only [mm, sideBySide_hi, endToEnd_hi, blockDiag_lo1, blockDiag_hi1, mul_zero, Finset.sum_const_zero, zero_add]

/-- Column 0 of the fused network is the first branch. -/
theorem net_fused_col0 (r : Fin n) :
    net A X (sideBySide We Wg) (endToEnd be bg) (blockDiag We2 Wg2) (pair be2 bg2) r 0
      = net A X We be We2 (fun _ => be2) r 0 := by
  have hb : pair be2 bg2 0 = be2 := if_pos rfl
  unfold net out
  refine congrArg₂ (· + ·) ?_ hb
  exact Finset.sum_congr rfl fun l _ => congrArg (A r l * ·) (hidden_fused_col0 A X We Wg be bg We2 Wg2 l)

/-- Column 1 of the fused network is the second branch. -/
theorem net_fused_col1 (r : Fin n) :
    net A X (sideBySide We Wg) (endToEnd be bg) (blockDiag We2 Wg2) (pair be2 bg2) r 1
      = net A X Wg bg Wg2 (fun _ => bg2) r 0 := by
  have hb : pair be2 bg2 1 = bg2 := if_neg (by decide)
  unfold net out
  refine congrArg₂ (· + ·) ?_ hb
  exact Finset.sum_congr rfl fun l _ => congrArg (A r l * ·) (hidden_fused_col1 A X We Wg be bg We2 Wg2 l)

end Cert.Gcn

end
-- ==== Proof.Region0.lean ====
import proofs.«123875_g20933670601111_cont_8to1_1445_9_alg».proof.Proof.Gen.KernelIdeal.Frame
import proofs.«123875_g20933670601111_cont_8to1_1445_9_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Cert.KernelIdeal Cert.KernelIdeal.Gen Cert.Gcn

namespace Cert.KernelIdeal.Region0

variable (V : (c : Dev nD) → (b : Ref sig .tc) → Buf (Elt Ideal) ((c : Thread nD τ).loc b))

/-! ## The block's matrix product at an index -/

theorem prodLhs_0 (i : S2000x192.Idx) (q : dot_S2000x256_S256x192_S2000x192_1_0_0_1_n_n.contr.Idx) :
    (dot_S2000x256_S256x192_S2000x192_1_0_0_1_n_n.lhsIdx i q 0).val = (i 0).val := by
  unfold DotDims.lhsIdx
  rw [dif_neg (show ¬(0 : Fin S2000x256.rank) ∈ dot_S2000x256_S256x192_S2000x192_1_0_0_1_n_n.lhsBatch by decide), dif_pos (show (0 : Fin S2000x256.rank) ∈ dot_S2000x256_S256x192_S2000x192_1_0_0_1_n_n.lhsNonContracting by decide)]
  rfl
theorem prodLhs_1 (i : S2000x192.Idx) (q : dot_S2000x256_S256x192_S2000x192_1_0_0_1_n_n.contr.Idx) :
    (dot_S2000x256_S256x192_S2000x192_1_0_0_1_n_n.lhsIdx i q 1).val = (q ⟨0, by decide⟩).val :=
  dot_S2000x256_S256x192_S2000x192_1_0_0_1_n_n.lhsIdx_val_of_single rfl i q
theorem prodRhs_0 (i : S2000x192.Idx) (q : dot_S2000x256_S256x192_S2000x192_1_0_0_1_n_n.contr.Idx) :
    (dot_S2000x256_S256x192_S2000x192_1_0_0_1_n_n.rhsIdx i q 0).val = (q ⟨0, by decide⟩).val :=
  dot_S2000x256_S256x192_S2000x192_1_0_0_1_n_n.rhsIdx_val_of_single rfl i q
theorem prodRhs_1 (i : S2000x192.Idx) (q : dot_S2000x256_S256x192_S2000x192_1_0_0_1_n_n.contr.Idx) :
    (dot_S2000x256_S256x192_S2000x192_1_0_0_1_n_n.rhsIdx i q 1).val = (i 1).val := by
  unfold DotDims.rhsIdx
  rw [dif_neg (show ¬(1 : Fin S256x192.rank) ∈ dot_S2000x256_S256x192_S2000x192_1_0_0_1_n_n.rhsBatch by decide), dif_pos (show (1 : Fin S256x192.rank) ∈ dot_S2000x256_S256x192_S2000x192_1_0_0_1_n_n.rhsNonContracting by decide)]
  rfl

/-- The product of a 2000 × 256 block by a 256 × 192 block, accumulated into zero, at row `p` and column `q`. -/
theorem prod_apply (a : FVec Ideal S2000x256 .bf16) (b : FVec Ideal S256x192 .bf16) (p : Fin 2000) (q : Fin 192) :
    matmul (F := Ideal) dot_S2000x256_S256x192_S2000x192_1_0_0_1_n_n none a b (constant (F := Ideal) S2000x192 .f32 0x00000000#32) (rc p q)
      = ∑ d : Fin 256, a (rc p d) * b (rc d q) := by
  refine (Ideal.matmul_constant_zero_apply dot_S2000x256_S256x192_S2000x192_1_0_0_1_n_n none a b (rc p q)).trans ?_
  rw [← Equiv.sum_comp (ValueIdx.contrEquiv1 dot_S2000x256_S256x192_S2000x192_1_0_0_1_n_n 256 rfl rfl).symm]
  refine Finset.sum_congr rfl fun k _ => ?_
  have hk := ValueIdx.contrEquiv1_symm_val dot_S2000x256_S256x192_S2000x192_1_0_0_1_n_n 256 rfl rfl k
  have el : dot_S2000x256_S256x192_S2000x192_1_0_0_1_n_n.lhsIdx (rc p q) ((ValueIdx.contrEquiv1 dot_S2000x256_S256x192_S2000x192_1_0_0_1_n_n 256 rfl rfl).symm k) = rc p k := funext fun a => Fin.ext (by
    match a with
    | ⟨0, _⟩ => exact prodLhs_0 _ _
    | ⟨1, _⟩ => exact (prodLhs_1 _ _).trans hk)
  have er : dot_S2000x256_S256x192_S2000x192_1_0_0_1_n_n.rhsIdx (rc p q) ((ValueIdx.contrEquiv1 dot_S2000x256_S256x192_S2000x192_1_0_0_1_n_n 256 rfl rfl).symm k) = rc k q := funext fun a => Fin.ext (by
    match a with
    | ⟨0, _⟩ => exact (prodRhs_0 _ _).trans hk
    | ⟨1, _⟩ => exact prodRhs_1 _ _)
  rw [el, er]

/-- The payload at row `p`, column `q` of the block: the row of the first operand against the column of the second. -/
theorem pay_apply (x0 : Vec Ideal S2000x256 .f32) (x1 : Vec Ideal S256x192 .f32) (p : Fin 2000) (q : Fin 192) :
    k0_pay1 (F := Ideal) x0 x1 (rc p q) = ∑ d : Fin 256, x0 (rc p d) * x1 (rc d q) := by
  unfold k0_pay1
  refine (ValueIdx.truncf_apply (ψ := .bf16) _ bitsLt_bf16_f32 (rc p q)).trans ?_
  refine (prod_apply _ _ p q).trans ?_
  refine Finset.sum_congr rfl fun d _ => ?_
  rw [shapeCast_self]
  rfl

/-! ## From the blocks to the array -/

theorem zeros2 : (![0, 0] : Fin 2 → Nat) = fun _ => 0 := funext fun a => by fin_cases a <;> rfl

/-- The feature array as the call finds it. -/
abbrev feats (c : Dev nD) : Vec Ideal S10000x256 .f32 := V c main_arg1
/-- The weight array as the call finds it. -/
abbrev wts (c : Dev nD) : Vec Ideal S256x192 .f32 := V c main_v0

/-- The product of the two arrays, index by index. -/
abbrev prodArr (c : Dev nD) : S10000x192.Idx → EReal :=
  fun i => mm (cur (n0 := 10000) (n1 := 256) (feats V c)) (cur (n0 := 256) (n1 := 192) (wts V c)) (row i) (col i)

/-- The block index maps over the grid: the row blocks of the features and of the output move with the point, the
    weights stay at the one whole block. -/
theorem blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Rows `2000 n ≤ r < 2000 (n + 1)` of the product, from a block `x0` holding those rows of `A` and a block `x1`
    holding all of `W`. -/
theorem block_apply (A : Vec Ideal S10000x256 .f32) (W : Vec Ideal S256x192 .f32)
    (x0 : Vec Ideal S2000x256 .f32) (x1 : Vec Ideal S256x192 .f32) (n : Nat)
    (h0 : ∀ (p : Fin 2000) (d : Fin 256) (hp : n * 2000 + p.val < 10000), x0 (rc p d) = A (rc ⟨n * 2000 + p.val, hp⟩ d))
    (h1 : ∀ (d : Fin 256) (q : Fin 192), x1 (rc d q) = W (rc d q))
    (p : Fin 2000) (q : Fin 192) (hp : n * 2000 + p.val < 10000) :
    k0_pay1 (F := Ideal) x0 x1 (rc p q)
      = mm (cur (n0 := 10000) (n1 := 256) A) (cur (n0 := 256) (n1 := 192) W) ⟨n * 2000 + p.val, hp⟩ q := by
  rw [pay_apply]
  show _ = ∑ l : Fin 256, A (rc ⟨n * 2000 + p.val, hp⟩ l) * W (rc l q)
  refine Finset.sum_congr rfl fun d _ => ?_
  rw [h0 p d hp, h1 d q]

/-- What point `t` writes back is block `t` of the product array. -/
theorem flushed_eq (c : Dev nD) (t : Fin cfg0.N) :
    (dat0 (F := Ideal) V c).flushed 2 t = ((cfg0.win 2).blk t).view.read (Elt Ideal) (prodArr V c) := by
  show (cfg0.win 2).cut (grid0.coords t) ((dat0 V c).after 2 t) = _
  rw [after0_2]
  unfold out0_2
  rw [View.canon_unit_zero zeros2]
  simp only [View.ld_unit_zero (S := S2000x256) zeros2, View.ld_unit_zero (S := S256x192) zeros2]
  obtain ⟨e0, e1, e2, e3, e4, e5⟩ := blockIdx t
  have ht : t.val < 5 := lt_of_lt_of_eq t.isLt N_0
  funext y
  obtain ⟨p, q, rfl⟩ : ∃ (p : Fin 2000) (q : Fin 192), (y : S2000x192.Idx) = rc p q :=
    ⟨row (n0 := 2000) (n1 := 192) y, col (n0 := 2000) (n1 := 192) y, (rc_row_col (n0 := 2000) (n1 := 192) y).symm⟩
  have hp : t.val * 2000 + p.val < 10000 := by have := p.isLt; omega
  have h0 : ∀ (p : Fin 2000) (d : Fin 256) (hp : t.val * 2000 + p.val < 10000),
      iblk0 V c 0 t (rc p d) = feats V c (rc ⟨t.val * 2000 + p.val, hp⟩ d) := by
    intro p d hp
    unfold iblk0
    rw [View.read_apply]
    refine congrArg (feats V c) (funext fun a => Fin.ext ?_)
    match a with
    | ⟨0, _⟩ => show win0_0.index t (0 : Fin 2) * 2000 + 1 * p.val = t.val * 2000 + p.val; omega
    | ⟨1, _⟩ => show win0_0.index t (1 : Fin 2) * 256 + 1 * d.val = d.val; omega
  have h1 : ∀ (d : Fin 256) (q : Fin 192), iblk0 V c 1 t (rc d q) = wts V c (rc d q) := by
    intro d q
    unfold iblk0
    rw [View.read_apply]
    refine congrArg (wts V c) (funext fun a => Fin.ext ?_)
    match a with
    | ⟨0, _⟩ => show win0_1.index t (0 : Fin 2) * 256 + 1 * d.val = d.val; omega
    | ⟨1, _⟩ => show win0_1.index t (1 : Fin 2) * 192 + 1 * q.val = q.val; omega
  refine (block_apply (feats V c) (wts V c) (iblk0 V c 0 t) (iblk0 V c 1 t) t.val h0 h1 p q hp).trans ?_
  rw [View.read_apply]
  show mm _ _ _ _ = mm _ _ (row (((cfg0.win 2).blk t).view.emb (rc p q))) (col (((cfg0.win 2).blk t).view.emb (rc p q)))
  have hr : row (n0 := 10000) (n1 := 192) (((cfg0.win 2).blk t).view.emb (rc p q)) = ⟨t.val * 2000 + p.val, hp⟩ :=
    Fin.ext (by show win0_2.index t (0 : Fin 2) * 2000 + 1 * p.val = t.val * 2000 + p.val; omega)
  have hc : col (n0 := 10000) (n1 := 192) (((cfg0.win 2).blk t).view.emb (rc p q)) = q :=
    Fin.ext (by show win0_2.index t (1 : Fin 2) * 192 + 1 * q.val = q.val; omega)
  rw [hr, hc]

/-- An index of the output array is in point `t`'s block iff each coordinate is in the block's range on its axis. -/
theorem mem_blk (t : Fin cfg0.N) (i : S10000x192.Idx) :
    i ∈ ((cfg0.win 2).blk t).view.set ↔ ∀ a : Fin 2, win0_2.index t a * S2000x192.size a ≤ (i a).val ∧ (i a).val < win0_2.index t a * S2000x192.size a + S2000x192.size a := by
  show i ∈ ((View.whole main_v10).slice (win0_2.rect t)).set ↔ _
  rw [View.set_slice_whole, Rect.mem_set_unit]
  exact Iff.rfl

/-- Row `r` of the output array lies in the block of point `r / 2000`, which is written back. -/
theorem covered (i : S10000x192.Idx) :
    ∃ t : Fin cfg0.N, (cfg0.win 2).flush t = true ∧ i ∈ ((cfg0.win 2).blk t).view.set := by
  have hi0 : (i 0).val < 10000 := (i 0).isLt
  have hi1 : (i 1).val < 192 := (i 1).isLt
  obtain ⟨t, ht⟩ : ∃ t : Fin cfg0.N, t.val = (i 0).val / 2000 :=
    ⟨⟨(i 0).val / 2000, lt_of_lt_of_eq (by omega) N_0.symm⟩, rfl⟩
  obtain ⟨e0, e1, e2, e3, e4, e5⟩ := blockIdx t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 192 ≤ (i 1).val ∧ (i 1).val < win0_2.index t (1 : Fin 2) * 192 + 192; omega

/-- After the first call its output array holds the product of its two operand arrays as the call finds them. -/
theorem final (c : Dev nD) :
    (dat0 (F := Ideal) V c).arrAt 2 cfg0.N
      = fun i : S10000x192.Idx => mm (cur (n0 := 10000) (n1 := 256) (V c main_arg1)) (cur (n0 := 256) (n1 := 192) (V c main_v0)) (row i) (col i) :=
  (dat0 (F := Ideal) V c).arrAt_eq_of_cover 2 (prodArr V c) (fun t _ => flushed_eq V c t) covered

end Cert.KernelIdeal.Region0

end
-- ==== Proof.Region1.lean ====
import proofs.«123875_g20933670601111_cont_8to1_1445_9_alg».proof.Proof.Gen.KernelIdeal.Frame
import proofs.«123875_g20933670601111_cont_8to1_1445_9_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Cert.KernelIdeal Cert.KernelIdeal.Gen Cert.Gcn

namespace Cert.KernelIdeal.Region1

variable (V : (c : Dev nD) → (b : Ref sig .tc) → Buf (Elt Ideal) ((c : Thread nD τ).loc b))

/-- The left operand's row is the output's row. -/
theorem dotAdj_lhs_0 (i : S200x192.Idx) (q : dot_S200x10000_S10000x192_S200x192_1_0_0_1_n_n.contr.Idx) :
    (dot_S200x10000_S10000x192_S200x192_1_0_0_1_n_n.lhsIdx i q 0).val = (i 0).val := by
  unfold DotDims.lhsIdx
  rw [dif_neg (show ¬(0 : Fin S200x10000.rank) ∈ dot_S200x10000_S10000x192_S200x192_1_0_0_1_n_n.lhsBatch by decide), dif_pos (show (0 : Fin S200x10000.rank) ∈ dot_S200x10000_S10000x192_S200x192_1_0_0_1_n_n.lhsNonContracting by decide)]
  rfl
/-- The left operand's column is the summation index. -/
theorem dotAdj_lhs_1 (i : S200x192.Idx) (q : dot_S200x10000_S10000x192_S200x192_1_0_0_1_n_n.contr.Idx) :
    (dot_S200x10000_S10000x192_S200x192_1_0_0_1_n_n.lhsIdx i q 1).val = (q ⟨0, by decide⟩).val :=
  dot_S200x10000_S10000x192_S200x192_1_0_0_1_n_n.lhsIdx_val_of_single rfl i q
/-- The right operand's row is the summation index. -/
theorem dotAdj_rhs_0 (i : S200x192.Idx) (q : dot_S200x10000_S10000x192_S200x192_1_0_0_1_n_n.contr.Idx) :
    (dot_S200x10000_S10000x192_S200x192_1_0_0_1_n_n.rhsIdx i q 0).val = (q ⟨0, by decide⟩).val :=
  dot_S200x10000_S10000x192_S200x192_1_0_0_1_n_n.rhsIdx_val_of_single rfl i q
/-- The right operand's column is the output's column. -/
theorem dotAdj_rhs_1 (i : S200x192.Idx) (q : dot_S200x10000_S10000x192_S200x192_1_0_0_1_n_n.contr.Idx) :
    (dot_S200x10000_S10000x192_S200x192_1_0_0_1_n_n.rhsIdx i q 1).val = (i 1).val := by
  unfold DotDims.rhsIdx
  rw [dif_neg (show ¬(1 : Fin S10000x192.rank) ∈ dot_S200x10000_S10000x192_S200x192_1_0_0_1_n_n.rhsBatch by decide), dif_pos (show (1 : Fin S10000x192.rank) ∈ dot_S200x10000_S10000x192_S200x192_1_0_0_1_n_n.rhsNonContracting by decide)]
  rfl

/-- The left operand's row is the output's row. -/
theorem dotW2_lhs_0 (i : S200x2.Idx) (q : dot_S200x192_S192x2_S200x2_1_0_0_1_n_n.contr.Idx) :
    (dot_S200x192_S192x2_S200x2_1_0_0_1_n_n.lhsIdx i q 0).val = (i 0).val := by
  unfold DotDims.lhsIdx
  rw [dif_neg (show ¬(0 : Fin S200x192.rank) ∈ dot_S200x192_S192x2_S200x2_1_0_0_1_n_n.lhsBatch by decide), dif_pos (show (0 : Fin S200x192.rank) ∈ dot_S200x192_S192x2_S200x2_1_0_0_1_n_n.lhsNonContracting by decide)]
  rfl
/-- The left operand's column is the summation index. -/
theorem dotW2_lhs_1 (i : S200x2.Idx) (q : dot_S200x192_S192x2_S200x2_1_0_0_1_n_n.contr.Idx) :
    (dot_S200x192_S192x2_S200x2_1_0_0_1_n_n.lhsIdx i q 1).val = (q ⟨0, by decide⟩).val :=
  dot_S200x192_S192x2_S200x2_1_0_0_1_n_n.lhsIdx_val_of_single rfl i q
/-- The right operand's row is the summation index. -/
theorem dotW2_rhs_0 (i : S200x2.Idx) (q : dot_S200x192_S192x2_S200x2_1_0_0_1_n_n.contr.Idx) :
    (dot_S200x192_S192x2_S200x2_1_0_0_1_n_n.rhsIdx i q 0).val = (q ⟨0, by decide⟩).val :=
  dot_S200x192_S192x2_S200x2_1_0_0_1_n_n.rhsIdx_val_of_single rfl i q
/-- The right operand's column is the output's column. -/
theorem dotW2_rhs_1 (i : S200x2.Idx) (q : dot_S200x192_S192x2_S200x2_1_0_0_1_n_n.contr.Idx) :
    (dot_S200x192_S192x2_S200x2_1_0_0_1_n_n.rhsIdx i q 1).val = (i 1).val := by
  unfold DotDims.rhsIdx
  rw [dif_neg (show ¬(1 : Fin S192x2.rank) ∈ dot_S200x192_S192x2_S200x2_1_0_0_1_n_n.rhsBatch by decide), dif_pos (show (1 : Fin S192x2.rank) ∈ dot_S200x192_S192x2_S200x2_1_0_0_1_n_n.rhsNonContracting by decide)]
  rfl

/-- A block of 200 rows times a 10000 × 192 matrix, accumulated from zero, read at a row and a column: the sum over
    the 10000 inner indices. -/
theorem mm_adj_apply (a : FVec Ideal S200x10000 .bf16) (b : FVec Ideal S10000x192 .bf16) (p : Fin 200) (q : Fin 192) :
    matmul (F := Ideal) dot_S200x10000_S10000x192_S200x192_1_0_0_1_n_n none a b (constant (F := Ideal) S200x192 .f32 0x00000000#32) (rc p q)
      = ∑ l : Fin 10000, a (rc p l) * b (rc l q) := by
  refine (Ideal.matmul_constant_zero_apply dot_S200x10000_S10000x192_S200x192_1_0_0_1_n_n none a b (rc p q)).trans ?_
  rw [← Equiv.sum_comp (ValueIdx.contrEquiv1 dot_S200x10000_S10000x192_S200x192_1_0_0_1_n_n 10000 rfl rfl).symm]
  refine Finset.sum_congr rfl fun l _ => ?_
  have hl := ValueIdx.contrEquiv1_symm_val dot_S200x10000_S10000x192_S200x192_1_0_0_1_n_n 10000 rfl rfl l
  have el : dot_S200x10000_S10000x192_S200x192_1_0_0_1_n_n.lhsIdx (rc p q) ((ValueIdx.contrEquiv1 dot_S200x10000_S10000x192_S200x192_1_0_0_1_n_n 10000 rfl rfl).symm l) = rc p l := funext fun a => Fin.ext (by
    match a with
    | ⟨0, _⟩ => exact dotAdj_lhs_0 _ _
    | ⟨1, _⟩ => exact (dotAdj_lhs_1 _ _).trans hl)
  have er : dot_S200x10000_S10000x192_S200x192_1_0_0_1_n_n.rhsIdx (rc p q) ((ValueIdx.contrEquiv1 dot_S200x10000_S10000x192_S200x192_1_0_0_1_n_n 10000 rfl rfl).symm l) = rc l q := funext fun a => Fin.ext (by
    match a with
    | ⟨0, _⟩ => exact (dotAdj_rhs_0 _ _).trans hl
    | ⟨1, _⟩ => exact dotAdj_rhs_1 _ _)
  rw [el, er]

/-- A 200 × 192 block times a 192 × 2 matrix, accumulated from zero, read at a row and a column: the sum over the 192
    inner indices. -/
theorem mm_w2_apply (a : FVec Ideal S200x192 .bf16) (b : FVec Ideal S192x2 .bf16) (p : Fin 200) (q : Fin 2) :
    matmul (F := Ideal) dot_S200x192_S192x2_S200x2_1_0_0_1_n_n none a b (constant (F := Ideal) S200x2 .f32 0x00000000#32) (rc p q)
      = ∑ l : Fin 192, a (rc p l) * b (rc l q) := by
  refine (Ideal.matmul_constant_zero_apply dot_S200x192_S192x2_S200x2_1_0_0_1_n_n none a b (rc p q)).trans ?_
  rw [← Equiv.sum_comp (ValueIdx.contrEquiv1 dot_S200x192_S192x2_S200x2_1_0_0_1_n_n 192 rfl rfl).symm]
  refine Finset.sum_congr rfl fun l _ => ?_
  have hl := ValueIdx.contrEquiv1_symm_val dot_S200x192_S192x2_S200x2_1_0_0_1_n_n 192 rfl rfl l
  have el : dot_S200x192_S192x2_S200x2_1_0_0_1_n_n.lhsIdx (rc p q) ((ValueIdx.contrEquiv1 dot_S200x192_S192x2_S200x2_1_0_0_1_n_n 192 rfl rfl).symm l) = rc p l := funext fun a => Fin.ext (by
    match a with
    | ⟨0, _⟩ => exact dotW2_lhs_0 _ _
    | ⟨1, _⟩ => exact (dotW2_lhs_1 _ _).trans hl)
  have er : dot_S200x192_S192x2_S200x2_1_0_0_1_n_n.rhsIdx (rc p q) ((ValueIdx.contrEquiv1 dot_S200x192_S192x2_S200x2_1_0_0_1_n_n 192 rfl rfl).symm l) = rc l q := funext fun a => Fin.ext (by
    match a with
    | ⟨0, _⟩ => exact (dotW2_rhs_0 _ _).trans hl
    | ⟨1, _⟩ => exact dotW2_rhs_1 _ _)
  rw [el, er]

/-- The payload at row `p`, column `q` of the block: the hidden row of `p` (the adjacency row against the projected
    features, plus the bias, cut off below at zero) against column `q` of the second-layer weights. -/
theorem pay_apply (x0 : Vec Ideal S200x10000 .f32) (x1 : Vec Ideal S10000x192 .bf16) (x2 : Vec Ideal S1x192 .f32) (x3 : Vec Ideal S192x2 .f32)
    (p : Fin 200) (q : Fin 2) :
    k1_pay1 (F := Ideal) x0 x1 x2 x3 (rc p q)
      = ∑ k : Fin 192, max ((∑ l : Fin 10000, x0 (rc p l) * x1 (rc l k)) + x2 (rc (0 : Fin 1) k)) 0 * x3 (rc k q) := by
  unfold k1_pay1
  refine (mm_w2_apply _ _ p q).trans ?_
  refine Finset.sum_congr rfl fun k _ => ?_
  rw [shapeCast_self x1, shapeCast_self x2, shapeCast_self x3]
  refine congrArg₂ (· * ·) ?_ rfl
  show max (_ + _) (Ideal.ofBits .f32 0x00000000#32) = _
  rw [Ideal.ofBits_zero_f32]
  refine congrArg₂ max (congrArg₂ (· + ·) ?_ ?_) rfl
  · exact mm_adj_apply _ _ p k
  · exact broadcastTo_apply x2 _ (rc p k) (rc (0 : Fin 1) k) (fun a => match a with
      | ⟨0, _⟩ => by show (0 : Nat) = if (1 : Nat) = 1 then 0 else _; rw [if_pos rfl]
      | ⟨1, _⟩ => by show k.val = if (192 : Nat) = 1 then 0 else _; rw [if_neg (by decide)]; rfl)

/-- The all-zero offset of a whole-block access. -/
theorem zero_offset : (![0, 0] : Fin 2 → Nat) = fun _ => 0 := funext fun a => by fin_cases a <;> rfl

/-- The adjacency matrix as the call finds it. -/
abbrev adj (c : Dev nD) : Vec Ideal S10000x10000 .f32 := V c main_arg0
/-- The projected features as the call finds them. -/
abbrev proj (c : Dev nD) : Vec Ideal S10000x192 .bf16 := V c main_v10
/-- The bias row as the call finds it. -/
abbrev bias (c : Dev nD) : Vec Ideal S1x192 .f32 := V c main_v2
/-- The second-layer weights as the call finds them. -/
abbrev w2 (c : Dev nD) : Vec Ideal S192x2 .f32 := V c main_v7

/-- What the output array ends holding: the projected hidden layer, index by index. -/
abbrev G (c : Dev nD) : S10000x2.Idx → EReal := fun i =>
  hidden (cur (n0 := 10000) (n1 := 10000) (V c main_arg0)) (cur (n0 := 10000) (n1 := 192) (V c main_v10))
    (fun k : Fin 192 => (V c main_v2 : S1x192.Idx → EReal) (rc (0 : Fin 1) k)) (cur (n0 := 192) (n1 := 2) (V c main_v7)) (row i) (col i)

/-- The block index maps over the grid: the adjacency and the output move together, one block of rows per grid point;
    the other three operands are whole-array blocks. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A grid point is below fifty. -/
theorem point_lt (t : Fin cfg1.N) : t.val < 50 := by
  have h : t.val < grid1.N := t.isLt
  rw [N_1] at h
  exact h

/-- Row `p` of grid point `t`'s block is row `200 t + p` of the array. -/
abbrev rowAt (t : Fin cfg1.N) (p : Fin 200) : Fin 10000 := ⟨t.val * 200 + p.val, by have := point_lt t; have := p.isLt; omega⟩

/-- Entry `(p, q)` of grid point `t`'s output block sits at row `200 t + p`, column `q` of the output array. -/
theorem emb_out (t : Fin cfg1.N) (p : Fin 200) (q : Fin 2) :
    ((cfg1.win 4).blk t).view.emb (rc p q) = rc (rowAt t p) q := by
  obtain ⟨e00, e01, e10, e11, e20, e21, e30, e31, e40, e41⟩ := index_facts t
  funext a; apply Fin.ext
  match a with
  | ⟨0, _⟩ => show win1_4.index t (0 : Fin 2) * 200 + 1 * p.val = t.val * 200 + p.val; omega
  | ⟨1, _⟩ => show win1_4.index t (1 : Fin 2) * 2 + 1 * q.val = q.val; omega

/-- Entry `(p, l)` of grid point `t`'s adjacency block sits at row `200 t + p`, column `l` of the adjacency matrix. -/
theorem emb_adj (t : Fin cfg1.N) (p : Fin 200) (l : Fin 10000) :
    ((cfg1.win 0).blk t).view.emb (rc p l) = rc (rowAt t p) l := by
  obtain ⟨e00, e01, e10, e11, e20, e21, e30, e31, e40, e41⟩ := index_facts t
  funext a; apply Fin.ext
  match a with
  | ⟨0, _⟩ => show win1_0.index t (0 : Fin 2) * 200 + 1 * p.val = t.val * 200 + p.val; omega
  | ⟨1, _⟩ => show win1_0.index t (1 : Fin 2) * 10000 + 1 * l.val = l.val; omega

/-- The projected features' block is the whole array: an entry sits where it is. -/
theorem emb_proj (t : Fin cfg1.N) (l : Fin 10000) (k : Fin 192) :
    ((cfg1.win 1).blk t).view.emb (rc l k) = rc l k := by
  obtain ⟨e00, e01, e10, e11, e20, e21, e30, e31, e40, e41⟩ := index_facts t
  funext a; apply Fin.ext
  match a with
  | ⟨0, _⟩ => show win1_1.index t (0 : Fin 2) * 10000 + 1 * l.val = l.val; omega
  | ⟨1, _⟩ => show win1_1.index t (1 : Fin 2) * 192 + 1 * k.val = k.val; omega

/-- The bias row's block is the whole array. -/
theorem emb_bias (t : Fin cfg1.N) (k : Fin 192) :
    ((cfg1.win 2).blk t).view.emb (rc (0 : Fin 1) k) = rc (0 : Fin 1) k := by
  obtain ⟨e00, e01, e10, e11, e20, e21, e30, e31, e40, e41⟩ := index_facts t
  funext a; apply Fin.ext
  match a with
  | ⟨0, _⟩ => show win1_2.index t (0 : Fin 2) * 1 + 1 * 0 = 0; omega
  | ⟨1, _⟩ => show win1_2.index t (1 : Fin 2) * 192 + 1 * k.val = k.val; omega

/-- The second-layer weights' block is the whole array. -/
theorem emb_w2 (t : Fin cfg1.N) (k : Fin 192) (q : Fin 2) :
    ((cfg1.win 3).blk t).view.emb (rc k q) = rc k q := by
  obtain ⟨e00, e01, e10, e11, e20, e21, e30, e31, e40, e41⟩ := index_facts t
  funext a; apply Fin.ext
  match a with
  | ⟨0, _⟩ => show win1_3.index t (0 : Fin 2) * 192 + 1 * k.val = k.val; omega
  | ⟨1, _⟩ => show win1_3.index t (1 : Fin 2) * 2 + 1 * q.val = q.val; omega

/-- What grid point `t` writes back is its block of rows of the projected hidden layer: the payload's sums over the
    blocks are the same sums over the arrays, the adjacency rows shifted by `200 t`. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero zero_offset]
  simp only [View.ld_unit_zero (S := S200x10000) zero_offset, View.ld_unit_zero (S := S10000x192) zero_offset,
    View.ld_unit_zero (S := S1x192) zero_offset, View.ld_unit_zero (S := S192x2) zero_offset]
  refine funext fun (y : S200x2.Idx) => ?_
  obtain ⟨p, q, rfl⟩ : ∃ (p : Fin 200) (q : Fin 2), y = rc p q := ⟨row y, col y, (rc_row_col y).symm⟩
  show k1_pay1 (F := Ideal) (iblk1 V c 0 t) (iblk1 V c 1 t) (iblk1 V c 2 t) (iblk1 V c 3 t) (rc p q)
    = G V c (((cfg1.win 4).blk t).view.emb (rc p q))
  rw [emb_out]
  refine (pay_apply _ _ _ _ p q).trans ?_
  show _ = ∑ k : Fin 192, max ((∑ l : Fin 10000, adj V c (rc (rowAt t p) l) * proj V c (rc l k)) + bias V c (rc (0 : Fin 1) k)) 0
      * w2 V c (rc k q)
  refine Finset.sum_congr rfl fun k _ => ?_
  refine congrArg₂ (· * ·) (congrArg₂ max (congrArg₂ (· + ·) (Finset.sum_congr rfl fun l _ => congrArg₂ (· * ·) ?_ ?_) ?_) rfl) ?_
  · show adj V c (((cfg1.win 0).blk t).view.emb (rc p l)) = _
    rw [emb_adj]
  · show proj V c (((cfg1.win 1).blk t).view.emb (rc l k)) = _
    rw [emb_proj]
  · show bias V c (((cfg1.win 2).blk t).view.emb (rc (0 : Fin 1) k)) = _
    rw [emb_bias]
  · show w2 V c (((cfg1.win 3).blk t).view.emb (rc k q)) = _
    rw [emb_w2]

/-- An index of the array is in grid point `t`'s block iff each coordinate is in the block's range on its axis. -/
theorem mem_blk (t : Fin cfg1.N) (i : S10000x2.Idx) :
    i ∈ ((cfg1.win 4).blk t).view.set ↔ ∀ a : Fin 2, win1_4.index t a * S200x2.size a ≤ (i a).val ∧ (i a).val < win1_4.index t a * S200x2.size a + S200x2.size a := by
  show i ∈ ((View.whole main_v11).slice (win1_4.rect t)).set ↔ _
  rw [View.set_slice_whole, Rect.mem_set_unit]
  exact Iff.rfl

/-- Every index of the array is in the block of the grid point that owns its row: row `r` belongs to point `r / 200`. -/
theorem covered (i : S10000x2.Idx) :
    ∃ t : Fin cfg1.N, (cfg1.win 4).flush t = true ∧ i ∈ ((cfg1.win 4).blk t).view.set := by
  have hi0 : (i 0).val < 10000 := ValueIdx.idx2_lt0 i
  have hi1 : (i 1).val < 2 := ValueIdx.idx2_lt1 i
  have hN : (i 0).val / 200 < cfg1.N := by show _ < grid1.N; rw [N_1]; omega
  obtain ⟨e00, e01, e10, e11, e20, e21, e30, e31, e40, e41⟩ := index_facts ⟨(i 0).val / 200, hN⟩
  have e40' : win1_4.index ⟨(i 0).val / 200, hN⟩ (0 : Fin 2) = (i 0).val / 200 := e40
  refine ⟨⟨(i 0).val / 200, hN⟩, flush1_4 _, ?_⟩
  rw [mem_blk]
  intro a
  match a with
  | ⟨0, _⟩ =>
    show win1_4.index ⟨(i 0).val / 200, hN⟩ (0 : Fin 2) * 200 ≤ (i 0).val ∧ (i 0).val < win1_4.index ⟨(i 0).val / 200, hN⟩ (0 : Fin 2) * 200 + 200
    omega
  | ⟨1, _⟩ =>
    show win1_4.index ⟨(i 0).val / 200, hN⟩ (1 : Fin 2) * 2 ≤ (i 1).val ∧ (i 1).val < win1_4.index ⟨(i 0).val / 200, hN⟩ (1 : Fin 2) * 2 + 2
    omega

/-- After the second call its output array holds the projected hidden layer of its operand arrays as the call finds them. -/
theorem final (c : Dev nD) :
    (dat1 (F := Ideal) V c).arrAt 4 cfg1.N
      = fun i : S10000x2.Idx => hidden (cur (n0 := 10000) (n1 := 10000) (V c main_arg0)) (cur (n0 := 10000) (n1 := 192) (V c main_v10))
          (fun k : Fin 192 => (V c main_v2 : S1x192.Idx → EReal) (rc (0 : Fin 1) k)) (cur (n0 := 192) (n1 := 2) (V c main_v7)) (row i) (col i) := by
  exact (dat1 (F := Ideal) V c).arrAt_eq_of_cover 4 (G V c) (fun t _ => flushed_eq V c t) covered

end Cert.KernelIdeal.Region1

end
-- ==== Proof.Region2.lean ====
import proofs.«123875_g20933670601111_cont_8to1_1445_9_alg».proof.Proof.Gen.KernelIdeal.Frame
import proofs.«123875_g20933670601111_cont_8to1_1445_9_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Cert.KernelIdeal Cert.KernelIdeal.Gen Cert.Gcn

namespace Cert.KernelIdeal.Region2

variable (V : (c : Dev nD) → (b : Ref sig .tc) → Buf (Elt Ideal) ((c : Thread nD τ).loc b))

/-! ## The product of the block -/

/-- The left operand's row is the output's row. -/
theorem prod_lhs_row (i : S400x2.Idx) (q : dot_S400x10000_S10000x2_S400x2_1_0_0_1_n_n.contr.Idx) :
    (dot_S400x10000_S10000x2_S400x2_1_0_0_1_n_n.lhsIdx i q 0).val = (i 0).val := by
  unfold DotDims.lhsIdx
  rw [dif_neg (show ¬(0 : Fin S400x10000.rank) ∈ dot_S400x10000_S10000x2_S400x2_1_0_0_1_n_n.lhsBatch by decide), dif_pos (show (0 : Fin S400x10000.rank) ∈ dot_S400x10000_S10000x2_S400x2_1_0_0_1_n_n.lhsNonContracting by decide)]
  rfl
/-- The left operand's column is the summation index. -/
theorem prod_lhs_col (i : S400x2.Idx) (q : dot_S400x10000_S10000x2_S400x2_1_0_0_1_n_n.contr.Idx) :
    (dot_S400x10000_S10000x2_S400x2_1_0_0_1_n_n.lhsIdx i q 1).val = (q ⟨0, by decide⟩).val :=
  dot_S400x10000_S10000x2_S400x2_1_0_0_1_n_n.lhsIdx_val_of_single rfl i q
/-- The right operand's row is the summation index. -/
theorem prod_rhs_row (i : S400x2.Idx) (q : dot_S400x10000_S10000x2_S400x2_1_0_0_1_n_n.contr.Idx) :
    (dot_S400x10000_S10000x2_S400x2_1_0_0_1_n_n.rhsIdx i q 0).val = (q ⟨0, by decide⟩).val :=
  dot_S400x10000_S10000x2_S400x2_1_0_0_1_n_n.rhsIdx_val_of_single rfl i q
/-- The right operand's column is the output's column. -/
theorem prod_rhs_col (i : S400x2.Idx) (q : dot_S400x10000_S10000x2_S400x2_1_0_0_1_n_n.contr.Idx) :
    (dot_S400x10000_S10000x2_S400x2_1_0_0_1_n_n.rhsIdx i q 1).val = (i 1).val := by
  unfold DotDims.rhsIdx
  rw [dif_neg (show ¬(1 : Fin S10000x2.rank) ∈ dot_S400x10000_S10000x2_S400x2_1_0_0_1_n_n.rhsBatch by decide), dif_pos (show (1 : Fin S10000x2.rank) ∈ dot_S400x10000_S10000x2_S400x2_1_0_0_1_n_n.rhsNonContracting by decide)]
  rfl

/-- The product into the zero accumulator, at row `p` and column `q`: the sum over the shared axis. -/
theorem prod_apply (a : FVec Ideal S400x10000 .bf16) (b : FVec Ideal S10000x2 .bf16) (p : Fin 400) (q : Fin 2) :
    matmul (F := Ideal) dot_S400x10000_S10000x2_S400x2_1_0_0_1_n_n none a b (constant (F := Ideal) S400x2 .f32 0x00000000#32) (rc p q)
      = ∑ l : Fin 10000, a (rc p l) * b (rc l q) := by
  simp only [matmul]
  rw [Ideal.matmul_constant_zero_apply, ← Equiv.sum_comp (ValueIdx.contrEquiv1 dot_S400x10000_S10000x2_S400x2_1_0_0_1_n_n 10000 rfl rfl).symm]
  refine Finset.sum_congr rfl fun k _ => ?_
  have hk := ValueIdx.contrEquiv1_symm_val dot_S400x10000_S10000x2_S400x2_1_0_0_1_n_n 10000 rfl rfl k
  have el : dot_S400x10000_S10000x2_S400x2_1_0_0_1_n_n.lhsIdx (rc p q) ((ValueIdx.contrEquiv1 dot_S400x10000_S10000x2_S400x2_1_0_0_1_n_n 10000 rfl rfl).symm k) = rc p k := funext fun a => Fin.ext (by
    match a with
    | ⟨0, _⟩ => exact prod_lhs_row _ _
    | ⟨1, _⟩ => exact (prod_lhs_col _ _).trans hk)
  have er : dot_S400x10000_S10000x2_S400x2_1_0_0_1_n_n.rhsIdx (rc p q) ((ValueIdx.contrEquiv1 dot_S400x10000_S10000x2_S400x2_1_0_0_1_n_n 10000 rfl rfl).symm k) = rc k q := funext fun a => Fin.ext (by
    match a with
    | ⟨0, _⟩ => exact (prod_rhs_row _ _).trans hk
    | ⟨1, _⟩ => exact prod_rhs_col _ _)
  rw [el, er]

/-- The payload at row `p`, column `q` of the block: the adjacency row against column `q` of the second operand, plus
    the bias of column `q`. -/
theorem pay_apply (x0 : Vec Ideal S400x10000 .f32) (x1 : Vec Ideal S10000x2 .f32) (x2 : Vec Ideal S1x2 .f32) (p : Fin 400) (q : Fin 2) :
    k2_pay1 (F := Ideal) x0 x1 x2 (rc p q) = (∑ l : Fin 10000, x0 (rc p l) * x1 (rc l q)) + x2 (rc (0 : Fin 1) q) := by
  unfold k2_pay1
  rw [ValueIdx.addf_apply, prod_apply, shapeCast_self, shapeCast_self]
  rw [broadcastTo_apply x2 broadcasts_S1x2_S400x2 (rc p q) (rc (0 : Fin 1) q) (fun a => by
    match a with
    | ⟨0, _⟩ => show (0 : Nat) = if (1 : Nat) = 1 then 0 else _; rw [if_pos rfl]
    | ⟨1, _⟩ => show q.val = if (2 : Nat) = 1 then 0 else q.val; rw [if_neg (by decide)])]
  rfl

/-! ## From the blocks to the array -/

/-- The all-zero offsets, as the constant function. -/
theorem zeros_eq : (![0, 0] : Fin 2 → Nat) = fun _ => 0 := funext fun a => by fin_cases a <;> rfl

/-- The adjacency matrix as the call finds it. -/
abbrev adj (c : Dev nD) : Vec Ideal S10000x10000 .f32 := V c main_arg0
/-- The projected hidden layer as the call finds it. -/
abbrev hid (c : Dev nD) : Vec Ideal S10000x2 .f32 := V c main_v11
/-- The output bias row as the call finds it. -/
abbrev bias (c : Dev nD) : Vec Ideal S1x2 .f32 := V c main_v9

/-- The output layer of the three arrays, index by index. -/
abbrev layer (c : Dev nD) : S10000x2.Idx → EReal := fun i =>
  out (cur (n0 := 10000) (n1 := 10000) (adj V c)) (cur (n0 := 10000) (n1 := 2) (hid V c))
    (fun q : Fin 2 => bias V c (rc (0 : Fin 1) q)) (row i) (col i)

/-- The block indices over the grid: the adjacency's row block is the output's, which is the point; every other block
    index is zero. -/
theorem block_indices : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The adjacency's block at point `t` is rows `400·t …` of the adjacency, all columns. -/
theorem adj_block (c : Dev nD) (t : Fin cfg2.N) (p : Fin 400) (l : Fin 10000) (j : S10000x10000.Idx)
    (h0 : (j 0).val = t.val * 400 + p.val) (h1 : (j 1).val = l.val) :
    iblk2 V c 0 t (rc p l) = adj V c j := by
  obtain ⟨e0, e1, e2, e3, e4, e5, e6, e7⟩ := block_indices t
  show adj V c (((cfg2.win 0).blk t).view.emb (rc p l)) = adj V c j
  refine congrArg (adj V c) ?_
  funext a; apply Fin.ext
  match a with
  | ⟨0, _⟩ => show win2_0.index t (0 : Fin 2) * 400 + 1 * p.val = (j 0).val; omega
  | ⟨1, _⟩ => show win2_0.index t (1 : Fin 2) * 10000 + 1 * l.val = (j 1).val; omega

/-- The second operand's block at every point is the whole array. -/
theorem hid_block (c : Dev nD) (t : Fin cfg2.N) (l : Fin 10000) (q : Fin 2) (j : S10000x2.Idx)
    (h0 : (j 0).val = l.val) (h1 : (j 1).val = q.val) :
    iblk2 V c 1 t (rc l q) = hid V c j := by
  obtain ⟨e0, e1, e2, e3, e4, e5, e6, e7⟩ := block_indices t
  show hid V c (((cfg2.win 1).blk t).view.emb (rc l q)) = hid V c j
  refine congrArg (hid V c) ?_
  funext a; apply Fin.ext
  match a with
  | ⟨0, _⟩ => show win2_1.index t (0 : Fin 2) * 10000 + 1 * l.val = (j 0).val; omega
  | ⟨1, _⟩ => show win2_1.index t (1 : Fin 2) * 2 + 1 * q.val = (j 1).val; omega

/-- The bias row's block at every point is the whole row. -/
theorem bias_block (c : Dev nD) (t : Fin cfg2.N) (z : Fin 1) (q : Fin 2) (j : S1x2.Idx)
    (h0 : (j 0).val = z.val) (h1 : (j 1).val = q.val) :
    iblk2 V c 2 t (rc z q) = bias V c j := by
  obtain ⟨e0, e1, e2, e3, e4, e5, e6, e7⟩ := block_indices t
  show bias V c (((cfg2.win 2).blk t).view.emb (rc z q)) = bias V c j
  refine congrArg (bias V c) ?_
  funext a; apply Fin.ext
  match a with
  | ⟨0, _⟩ => show win2_2.index t (0 : Fin 2) * 1 + 1 * z.val = (j 0).val; omega
  | ⟨1, _⟩ => show win2_2.index t (1 : Fin 2) * 2 + 1 * q.val = (j 1).val; omega

/-- The payload of the blocks at point `t`, at row `p` and column `q`, is the output layer at row `400·t + p`, column `q`. -/
theorem payload_block (c : Dev nD) (t : Fin cfg2.N) (p : Fin 400) (q : Fin 2) (i : S10000x2.Idx)
    (h0 : (i 0).val = t.val * 400 + p.val) (h1 : (i 1).val = q.val) :
    k2_pay1 (F := Ideal) (iblk2 V c 0 t) (iblk2 V c 1 t) (iblk2 V c 2 t) (rc p q) = layer V c i := by
  refine (pay_apply _ _ _ p q).trans ?_
  show _ = (∑ l : Fin 10000, adj V c (rc (row i) l) * hid V c (rc l (col i))) + bias V c (rc (0 : Fin 1) (col i))
  refine congrArg₂ (· + ·) (Finset.sum_congr rfl fun l _ => ?_) ?_
  · rw [adj_block V c t p l (rc (row i) l) h0 rfl, hid_block V c t l q (rc l (col i)) rfl h1]
  · exact bias_block V c t 0 q (rc (0 : Fin 1) (col i)) rfl h1

/-- What point `t` writes back is block `t` of the output layer. -/
theorem flushed_eq (c : Dev nD) (t : Fin cfg2.N) :
    (dat2 (F := Ideal) V c).flushed 3 t = ((cfg2.win 3).blk t).view.read (Elt Ideal) (layer V c) := by
  show (cfg2.win 3).cut (grid2.coords t) ((dat2 V c).after 3 t) = _
  rw [after2_3]
  unfold out2_3
  rw [View.canon_unit_zero zeros_eq]
  simp only [View.ld_unit_zero (S := S400x10000) zeros_eq, View.ld_unit_zero (S := S10000x2) zeros_eq, View.ld_unit_zero (S := S1x2) zeros_eq]
  obtain ⟨e0, e1, e2, e3, e4, e5, e6, e7⟩ := block_indices t
  refine funext fun (y : S400x2.Idx) => ?_
  obtain ⟨p, q, rfl⟩ : ∃ (p : Fin 400) (q : Fin 2), y = rc p q := ⟨row y, col y, (rc_row_col y).symm⟩
  refine payload_block V c t p q (((cfg2.win 3).blk t).view.emb (rc p q)) ?_ ?_
  · show win2_3.index t (0 : Fin 2) * 400 + 1 * p.val = t.val * 400 + p.val; omega
  · show win2_3.index t (1 : Fin 2) * 2 + 1 * q.val = q.val; omega

/-- An index of the array is in point `t`'s block iff each coordinate is in the block's range on its axis. -/
theorem mem_block (t : Fin cfg2.N) (i : S10000x2.Idx) :
    i ∈ ((cfg2.win 3).blk t).view.set ↔ ∀ a : Fin 2, win2_3.index t a * S400x2.size a ≤ (i a).val ∧ (i a).val < win2_3.index t a * S400x2.size a + S400x2.size a := by
  show i ∈ ((View.whole main_v12).slice (win2_3.rect t)).set ↔ _
  rw [View.set_slice_whole, Rect.mem_set_unit]
  exact Iff.rfl

/-- Row `r` of the array is in the block of point `r / 400`, and every point writes its block back. -/
theorem covered (i : S10000x2.Idx) :
    ∃ t : Fin cfg2.N, (cfg2.win 3).flush t = true ∧ i ∈ ((cfg2.win 3).blk t).view.set := by
  have hi0 : (i 0).val < 10000 := ValueIdx.idx2_lt0 i
  have hi1 : (i 1).val < 2 := ValueIdx.idx2_lt1 i
  have hN : cfg2.N = 25 := N_2
  obtain ⟨t, ht⟩ : ∃ t : Fin cfg2.N, t.val = (i 0).val / 400 := ⟨⟨(i 0).val / 400, by rw [hN]; omega⟩, rfl⟩
  obtain ⟨e0, e1, e2, e3, e4, e5, e6, e7⟩ := block_indices t
  refine ⟨t, flush2_3 t, ?_⟩
  rw [mem_block]
  intro a
  match a with
  | ⟨0, _⟩ => show win2_3.index t (0 : Fin 2) * 400 ≤ (i 0).val ∧ (i 0).val < win2_3.index t (0 : Fin 2) * 400 + 400; omega
  | ⟨1, _⟩ => show win2_3.index t (1 : Fin 2) * 2 ≤ (i 1).val ∧ (i 1).val < win2_3.index t (1 : Fin 2) * 2 + 2; omega

/-- After the third call its output array holds the output layer of its operand arrays as the call finds them. -/
theorem final (c : Dev nD) :
    (dat2 (F := Ideal) V c).arrAt 3 cfg2.N
      = fun i : S10000x2.Idx => out (cur (n0 := 10000) (n1 := 10000) (V c main_arg0)) (cur (n0 := 10000) (n1 := 2) (V c main_v11))
          (fun q : Fin 2 => (V c main_v9 : S1x2.Idx → EReal) (rc (0 : Fin 1) q)) (row i) (col i) := by
  exact (dat2 (F := Ideal) V c).arrAt_eq_of_cover 3 (layer V c) (fun t _ => flushed_eq V c t) covered

end Cert.KernelIdeal.Region2

end
-- ==== Proof.HostSide.lean ====
import proofs.«123875_g20933670601111_cont_8to1_1445_9_alg».proof.Proof.Gen.KernelIdeal.Frame
import proofs.«123875_g20933670601111_cont_8to1_1445_9_alg».proof.Proof.GcnSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
set_option maxRecDepth 16384

noncomputable section

open Idealize.ShloMosaic Idealize.ShloMosaic.TcCoe Idealize.SL.Sem
open Idealize.ShloMosaic.Pipeline (Dat Cfg Window)
open Cert.KernelIdeal Cert.KernelIdeal.Gen Cert.Gcn

namespace Cert.KernelIdeal.HostSide

variable (m : (ℓ : Loc nD τ sig) → Buf (Elt Ideal) ℓ) (ρ : Dev nD → PrngReg)

/-! ## Terms read at an index, over variables of the literal array types -/

/-- Two matrices side by side along the columns, read at a row and a column. -/
theorem sideBySide_read (a : S256x128.Idx → EReal) (b : S256x64.Idx → EReal)
    (h : Shape.Concatenates [S256x128, S256x64] S256x192 1) (r : Fin 256) (k : Fin 192) :
    concatenate S256x192 1 [⟨S256x128, a⟩, ⟨S256x64, b⟩] h (rc r k)
      = sideBySide (cur (n0 := 256) (n1 := 128) a) (cur (n0 := 256) (n1 := 64) b) r k := by
  unfold sideBySide
  by_cases hk : k.val < 128
  · rw [dif_pos hk]
    exact concatenate_pair_apply_left 1 a b h (rc r k) rfl (rc r ⟨k.val, hk⟩)
      (fun b => match b with | ⟨0, _⟩ => rfl | ⟨1, _⟩ => rfl)
  · rw [dif_neg hk]
    exact concatenate_pair_apply_right 1 a b h (rc r k) rfl rfl (rc r ⟨k.val - 128, by have := k.isLt; omega⟩)
      (fun b hb => match b, hb with | ⟨0, _⟩, _ => rfl | ⟨1, _⟩, hb => absurd rfl hb)
      (by show k.val - 128 + 128 = k.val; omega)

/-- Two vectors end to end, read at a position. -/
theorem endToEnd_read (a : S128.Idx → EReal) (b : S64.Idx → EReal)
    (h : Shape.Concatenates [S128, S64] S192 0) (k : Fin 192) :
    concatenate S192 0 [⟨S128, a⟩, ⟨S64, b⟩] h (ValueIdx.ix1 k)
      = endToEnd (cur1 (n := 128) a) (cur1 (n := 64) b) k := by
  unfold endToEnd
  by_cases hk : k.val < 128
  · rw [dif_pos hk]
    exact concatenate_pair_apply_left 0 a b h (ValueIdx.ix1 k) rfl (ValueIdx.ix1 ⟨k.val, hk⟩)
      (fun b => match b with | ⟨0, _⟩ => rfl)
  · rw [dif_neg hk]
    exact concatenate_pair_apply_right 0 a b h (ValueIdx.ix1 k) rfl rfl (ValueIdx.ix1 ⟨k.val - 128, by have := k.isLt; omega⟩)
      (fun b hb => match b, hb with | ⟨0, _⟩, hb => absurd rfl hb)
      (by show k.val - 128 + 128 = k.val; omega)

/-- A vector broadcast to a one-row matrix, read in that row. -/
theorem row192_read (x : S192.Idx → EReal) (h : S192.BroadcastsInDim S1x192 (![1] : Fin 1 → Fin S1x192.rank)) (k : Fin 192) :
    broadcastInDim S1x192 ![1] h x (rc (0 : Fin 1) k) = x (ValueIdx.ix1 k) :=
  broadcastInDim_apply ![1] h x (rc (0 : Fin 1) k) (ValueIdx.ix1 k)
    (fun a => match a with | ⟨0, _⟩ => by show k.val = if (192 : Nat) = 1 then 0 else k.val; rw [if_neg (by decide)])

/-- A pair broadcast to a one-row matrix, read in that row. -/
theorem row2_read (x : S2.Idx → EReal) (h : S2.BroadcastsInDim S1x2 (![1] : Fin 1 → Fin S1x2.rank)) (q : Fin 2) :
    broadcastInDim S1x2 ![1] h x (rc (0 : Fin 1) q) = x (ValueIdx.ix1 q) :=
  broadcastInDim_apply ![1] h x (rc (0 : Fin 1) q) (ValueIdx.ix1 q)
    (fun a => match a with | ⟨0, _⟩ => by show q.val = if (2 : Nat) = 1 then 0 else q.val; rw [if_neg (by decide)])

/-- Two scalars end to end, read at a position. -/
theorem pair_read (a : S1.Idx → EReal) (b : S1.Idx → EReal)
    (h : Shape.Concatenates [S1, S1] S2 0) (q : Fin 2) :
    concatenate S2 0 [⟨S1, a⟩, ⟨S1, b⟩] h (ValueIdx.ix1 q)
      = pair (a (ValueIdx.ix1 (0 : Fin 1))) (b (ValueIdx.ix1 (0 : Fin 1))) q := by
  unfold pair
  by_cases hq : q.val = 0
  · rw [if_pos hq]
    exact concatenate_pair_apply_left 0 a b h (ValueIdx.ix1 q) rfl (ValueIdx.ix1 (0 : Fin 1))
      (fun b => match b with | ⟨0, _⟩ => by show (0 : Nat) = q.val; omega)
  · rw [if_neg hq]
    exact concatenate_pair_apply_right 0 a b h (ValueIdx.ix1 q) rfl rfl (ValueIdx.ix1 (0 : Fin 1))
      (fun b hb => match b, hb with | ⟨0, _⟩, hb => absurd rfl hb)
      (by show (0 : Nat) + 1 = q.val; have := q.isLt; omega)

/-- The scalar zero broadcast to any shape is zero everywhere. -/
theorem zeros_read (t : Shape) (h : S_.BroadcastsInDim t (![] : Fin 0 → Fin t.rank)) (j : t.Idx) :
    broadcastInDim t ![] h (constant (F := Ideal) S_ .f32 0x00000000#32) j = (0 : EReal) := by
  refine (broadcastInDim_apply ![] h _ j ValueIdx.ix0 (fun a => a.elim0)).trans ?_
  exact Ideal.ofBits_zero_f32

/-- The block-diagonal 192 × 2 matrix, read at a row and a column. -/
theorem blockDiag_read (a : S128x1.Idx → EReal) (b : S64x1.Idx → EReal)
    (h1 : S_.BroadcastsInDim S128x1 (![] : Fin 0 → Fin S128x1.rank))
    (h2 : Shape.Concatenates [S128x1, S128x1] S128x2 1)
    (h3 : S_.BroadcastsInDim S64x1 (![] : Fin 0 → Fin S64x1.rank))
    (h4 : Shape.Concatenates [S64x1, S64x1] S64x2 1)
    (h5 : Shape.Concatenates [S128x2, S64x2] S192x2 0) (k : Fin 192) (q : Fin 2) :
    concatenate S192x2 0
        [⟨S128x2, concatenate S128x2 1 [⟨S128x1, a⟩, ⟨S128x1, broadcastInDim S128x1 ![] h1 (constant (F := Ideal) S_ .f32 0x00000000#32)⟩] h2⟩,
         ⟨S64x2, concatenate S64x2 1 [⟨S64x1, broadcastInDim S64x1 ![] h3 (constant (F := Ideal) S_ .f32 0x00000000#32)⟩, ⟨S64x1, b⟩] h4⟩]
        h5 (rc k q)
      = blockDiag (cur (n0 := 128) (n1 := 1) a) (cur (n0 := 64) (n1 := 1) b) k q := by
  unfold blockDiag
  by_cases hk : k.val < 128
  · rw [dif_pos hk]
    refine (concatenate_pair_apply_left 0 _ _ h5 (rc k q) rfl (rc ⟨k.val, hk⟩ q)
      (fun b => match b with | ⟨0, _⟩ => rfl | ⟨1, _⟩ => rfl)).trans ?_
    by_cases hq : q.val = 0
    · rw [if_pos hq]
      exact concatenate_pair_apply_left 1 a _ h2 (rc ⟨k.val, hk⟩ q) rfl (rc ⟨k.val, hk⟩ (0 : Fin 1))
        (fun b => match b with | ⟨0, _⟩ => rfl | ⟨1, _⟩ => by show (0 : Nat) = q.val; omega)
    · rw [if_neg hq]
      refine (concatenate_pair_apply_right 1 a _ h2 (rc ⟨k.val, hk⟩ q) rfl rfl (rc ⟨k.val, hk⟩ (0 : Fin 1))
        (fun b hb => match b, hb with | ⟨0, _⟩, _ => rfl | ⟨1, _⟩, hb => absurd rfl hb)
        (by show (0 : Nat) + 1 = q.val; have := q.isLt; omega)).trans ?_
      exact zeros_read S128x1 h1 _
  · rw [dif_neg hk]
    have hk' : k.val - 128 < 64 := by have := k.isLt; omega
    refine (concatenate_pair_apply_right 0 _ _ h5 (rc k q) rfl rfl (rc ⟨k.val - 128, hk'⟩ q)
      (fun b hb => match b, hb with | ⟨0, _⟩, hb => absurd rfl hb | ⟨1, _⟩, _ => rfl)
      (by show k.val - 128 + 128 = k.val; omega)).trans ?_
    by_cases hq : q.val = 0
    · rw [if_pos hq]
      refine (concatenate_pair_apply_left 1 _ b h4 (rc ⟨k.val - 128, hk'⟩ q) rfl (rc ⟨k.val - 128, hk'⟩ (0 : Fin 1))
        (fun b => match b with | ⟨0, _⟩ => rfl | ⟨1, _⟩ => by show (0 : Nat) = q.val; omega)).trans ?_
      exact zeros_read S64x1 h3 _
    · rw [if_neg hq]
      exact concatenate_pair_apply_right 1 _ b h4 (rc ⟨k.val - 128, hk'⟩ q) rfl rfl (rc ⟨k.val - 128, hk'⟩ (0 : Fin 1))
        (fun b hb => match b, hb with | ⟨0, _⟩, _ => rfl | ⟨1, _⟩, hb => absurd rfl hb)
        (by show (0 : Nat) + 1 = q.val; have := q.isLt; omega)

/-! ## The four computed buffers as terms over the launch memory -/

theorem v0_term (c : Dev nD) : (V1 (F := Ideal) m ρ c main_v0 : S256x192.Idx → EReal)
    = concatenate S256x192 1 [⟨S256x128, m ((c : Thread nD τ).loc main_arg2)⟩, ⟨S256x64, m ((c : Thread nD τ).loc main_arg6)⟩]
        concatenates_S256x128_S256x64_S256x192_d1 := by
  show StableHlo.after hostOps0 (W0 m ρ c) (Proc.devRef .tc main_v0) = _
  after_results

theorem v2_term (c : Dev nD) : (V1 (F := Ideal) m ρ c main_v2 : S1x192.Idx → EReal)
    = broadcastInDim S1x192 ![1] bcast_S192_S1x192_1
        (concatenate S192 0 [⟨S128, m ((c : Thread nD τ).loc main_arg3)⟩, ⟨S64, m ((c : Thread nD τ).loc main_arg7)⟩] concatenates_S128_S64_S192_d0) := by
  show StableHlo.after hostOps0 (W0 m ρ c) (Proc.devRef .tc main_v2) = _
  after_results

theorem v7_term (c : Dev nD) : (V1 (F := Ideal) m ρ c main_v7 : S192x2.Idx → EReal)
    = concatenate S192x2 0
        [⟨S128x2, concatenate S128x2 1 [⟨S128x1, m ((c : Thread nD τ).loc main_arg4)⟩, ⟨S128x1, broadcastInDim S128x1 ![] bcast_S_S128x1 (constant (F := Ideal) S_ .f32 0x00000000#32)⟩] concatenates_S128x1_S128x1_S128x2_d1⟩,
         ⟨S64x2, concatenate S64x2 1 [⟨S64x1, broadcastInDim S64x1 ![] bcast_S_S64x1 (constant (F := Ideal) S_ .f32 0x00000000#32)⟩, ⟨S64x1, m ((c : Thread nD τ).loc main_arg8)⟩] concatenates_S64x1_S64x1_S64x2_d1⟩]
        concatenates_S128x2_S64x2_S192x2_d0 := by
  show StableHlo.after hostOps0 (W0 m ρ c) (Proc.devRef .tc main_v7) = _
  after_results

theorem v9_term (c : Dev nD) : (V1 (F := Ideal) m ρ c main_v9 : S1x2.Idx → EReal)
    = broadcastInDim S1x2 ![1] bcast_S2_S1x2_1
        (concatenate S2 0 [⟨S1, m ((c : Thread nD τ).loc main_arg5)⟩, ⟨S1, m ((c : Thread nD τ).loc main_arg9)⟩] concatenates_S1_S1_S2_d0) := by
  show StableHlo.after hostOps0 (W0 m ρ c) (Proc.devRef .tc main_v9) = _
  after_results

/-! ## The six facts -/

/-- The host stretch before the first call writes no argument. -/
theorem arg0_eq (c : Dev nD) : V1 (F := Ideal) m ρ c main_arg0 = m ((c : Thread nD τ).loc main_arg0) := by
  show StableHlo.after hostOps0 (W0 m ρ c) (Proc.devRef .tc main_arg0) = _
  refine (StableHlo.after_of_forall_not_mem (b := Proc.devRef .tc main_arg0) _ _ (List.forall_iff_forall_mem.mp ?_)).trans rfl
  simp only [hostOps0, List.flatten_cons, List.flatten_nil, List.append_nil, List.cons_append,
    List.nil_append, List.Forall, StableHlo.nullary_writes, StableHlo.unary_writes, StableHlo.binary_writes, Finset.mem_singleton]
  repeat' apply And.intro
  all_goals exact StableHlo.devRef_ne_of_ne (by decide)
theorem arg1_eq (c : Dev nD) : V1 (F := Ideal) m ρ c main_arg1 = m ((c : Thread nD τ).loc main_arg1) := by
  show StableHlo.after hostOps0 (W0 m ρ c) (Proc.devRef .tc main_arg1) = _
  refine (StableHlo.after_of_forall_not_mem (b := Proc.devRef .tc main_arg1) _ _ (List.forall_iff_forall_mem.mp ?_)).trans rfl
  simp only [hostOps0, List.flatten_cons, List.flatten_nil, List.append_nil, List.cons_append,
    List.nil_append, List.Forall, StableHlo.nullary_writes, StableHlo.unary_writes, StableHlo.binary_writes, Finset.mem_singleton]
  repeat' apply And.intro
  all_goals exact StableHlo.devRef_ne_of_ne (by decide)

/-- The first-layer weights as the first call finds them: the two weight matrices side by side. -/
theorem v0_eq (c : Dev nD) :
    cur (n0 := 256) (n1 := 192) (V1 (F := Ideal) m ρ c main_v0)
      = sideBySide (cur (n0 := 256) (n1 := 128) (m ((c : Thread nD τ).loc main_arg2))) (cur (n0 := 256) (n1 := 64) (m ((c : Thread nD τ).loc main_arg6))) := by
  have e := v0_term m ρ c
  funext r k
  exact (congrFun e (rc r k)).trans (sideBySide_read _ _ _ r k)

/-- The first-layer bias row: the two bias vectors end to end. -/
theorem v2_eq (c : Dev nD) :
    (fun k : Fin 192 => (V1 (F := Ideal) m ρ c main_v2 : S1x192.Idx → EReal) (rc (0 : Fin 1) k))
      = endToEnd (cur1 (n := 128) (m ((c : Thread nD τ).loc main_arg3))) (cur1 (n := 64) (m ((c : Thread nD τ).loc main_arg7))) := by
  have e := v2_term m ρ c
  funext k
  exact (congrFun e (rc (0 : Fin 1) k)).trans ((row192_read _ _ k).trans (endToEnd_read _ _ _ k))

/-- The second-layer weights: the two one-column matrices on the diagonal, zero elsewhere. -/
theorem v7_eq (c : Dev nD) :
    cur (n0 := 192) (n1 := 2) (V1 (F := Ideal) m ρ c main_v7)
      = blockDiag (cur (n0 := 128) (n1 := 1) (m ((c : Thread nD τ).loc main_arg4))) (cur (n0 := 64) (n1 := 1) (m ((c : Thread nD τ).loc main_arg8))) := by
  have e := v7_term m ρ c
  funext k q
  exact (congrFun e (rc k q)).trans (blockDiag_read _ _ _ _ _ _ _ k q)

/-- The output bias row: the two scalars as a pair. -/
theorem v9_eq (c : Dev nD) :
    (fun q : Fin 2 => (V1 (F := Ideal) m ρ c main_v9 : S1x2.Idx → EReal) (rc (0 : Fin 1) q))
      = pair ((m ((c : Thread nD τ).loc main_arg5) : S1.Idx → EReal) (ValueIdx.ix1 (0 : Fin 1))) ((m ((c : Thread nD τ).loc main_arg9) : S1.Idx → EReal) (ValueIdx.ix1 (0 : Fin 1))) := by
  have e := v9_term m ρ c
  funext q
  exact (congrFun e (rc (0 : Fin 1) q)).trans ((row2_read _ _ q).trans (pair_read _ _ _ q))

end Cert.KernelIdeal.HostSide

end
-- ==== Proof.KernelValue.lean ====
/-
  The kernel program's two results as functions of its launch arguments.

  The run of @main passes five boundaries: the host operations that build the fused parameters, the three calls, and
  the two column slices. At each boundary a buffer either keeps what it held or is one call's output array, which is
  one function of that call's operand arrays. Walking back from the two results: each is a column of the third call's
  output, the output layer over the second call's output, which is the projected hidden layer over the first call's
  output, the product of the features with the side-by-side weights. Composed, the third call's output is the fused
  network of the launch arguments, and the results are its columns 1 and 0.
-/
import proofs.«123875_g20933670601111_cont_8to1_1445_9_alg».proof.Proof.Gen.KernelIdeal.Frame
import proofs.«123875_g20933670601111_cont_8to1_1445_9_alg».proof.Proof.GcnSpec
import Idealize.ShloMosaic.Lib.Pipeline.Value
import Idealize.ShloMosaic.Lib.ValueIdx
import Idealize.ShloMosaic.Lib.ValueLayout
import Idealize.ShloMosaic.PureOps.Ideal.Laws
import proofs.«123875_g20933670601111_cont_8to1_1445_9_alg».proof.Proof.KernelRun
import proofs.«123875_g20933670601111_cont_8to1_1445_9_alg».proof.Proof.Region0
import proofs.«123875_g20933670601111_cont_8to1_1445_9_alg».proof.Proof.Region1
import proofs.«123875_g20933670601111_cont_8to1_1445_9_alg».proof.Proof.Region2
import proofs.«123875_g20933670601111_cont_8to1_1445_9_alg».proof.Proof.HostSide
import Idealize.ShloMosaic.Lib.StableHlo.Run
set_option maxRecDepth 16384

noncomputable section

open Idealize.ShloMosaic Idealize.ShloMosaic.TcCoe Idealize.SL.Sem
open Idealize.ShloMosaic.Pipeline (Dat Cfg Window)
open Cert.KernelIdeal Cert.KernelIdeal.Gen Cert.Gcn

namespace Cert.KernelIdeal.Value

variable (m : (ℓ : Loc nD τ sig) → Buf (Elt Ideal) ℓ) (ρ : Dev nD → PrngReg)

/-! ## The arguments, by their literal types -/

abbrev adj (c : Dev nD) : S10000x10000.Idx → EReal := m ((c : Thread nD τ).loc main_arg0)
abbrev feats (c : Dev nD) : S10000x256.Idx → EReal := m ((c : Thread nD τ).loc main_arg1)

/-- The fused network of the launch arguments: what the three calls compute between them. -/
abbrev fused (c : Dev nD) : Fin 10000 → Fin 2 → EReal :=
  net (cur (n0 := 10000) (n1 := 10000) (adj m c)) (cur (n0 := 10000) (n1 := 256) (feats m c))
    (sideBySide (cur (n0 := 256) (n1 := 128) (m ((c : Thread nD τ).loc main_arg2))) (cur (n0 := 256) (n1 := 64) (m ((c : Thread nD τ).loc main_arg6))))
    (endToEnd (cur1 (n := 128) (m ((c : Thread nD τ).loc main_arg3))) (cur1 (n := 64) (m ((c : Thread nD τ).loc main_arg7))))
    (blockDiag (cur (n0 := 128) (n1 := 1) (m ((c : Thread nD τ).loc main_arg4))) (cur (n0 := 64) (n1 := 1) (m ((c : Thread nD τ).loc main_arg8))))
    (pair ((m ((c : Thread nD τ).loc main_arg5) : S1.Idx → EReal) (ValueIdx.ix1 (0 : Fin 1))) ((m ((c : Thread nD τ).loc main_arg9) : S1.Idx → EReal) (ValueIdx.ix1 (0 : Fin 1))))

/-! ## Entering the second call -/

theorem v2_arg0 (c : Dev nD) : (V2 (F := Ideal) m ρ c main_arg0 : S10000x10000.Idx → EReal) = adj m c :=
  (W2_of_ne m ρ c main_arg0 (by decide)).trans (Cert.KernelIdeal.HostSide.arg0_eq m ρ c)

theorem v2_v2 (c : Dev nD) : (V2 (F := Ideal) m ρ c main_v2 : S1x192.Idx → EReal) = V1 m ρ c main_v2 :=
  W2_of_ne m ρ c main_v2 (by decide)

theorem v2_v7 (c : Dev nD) : (V2 (F := Ideal) m ρ c main_v7 : S192x2.Idx → EReal) = V1 m ρ c main_v7 :=
  W2_of_ne m ρ c main_v7 (by decide)

theorem v2_v9 (c : Dev nD) : (V2 (F := Ideal) m ρ c main_v9 : S1x2.Idx → EReal) = V1 m ρ c main_v9 :=
  W2_of_ne m ρ c main_v9 (by decide)

/-- The projected features the first call leaves: the features times the side-by-side weights. -/
theorem v2_v10 (c : Dev nD) :
    (V2 (F := Ideal) m ρ c main_v10 : S10000x192.Idx → EReal)
      = fun i => mm (cur (n0 := 10000) (n1 := 256) (feats m c)) (cur (n0 := 256) (n1 := 192) (V1 (F := Ideal) m ρ c main_v0)) (row i) (col i) := by
  refine (W2_arr m ρ c 2).trans ((Cert.KernelIdeal.Region0.final (V1 m ρ) c).trans ?_)
  rw [show (V1 (F := Ideal) m ρ c main_arg1 : S10000x256.Idx → EReal) = feats m c from Cert.KernelIdeal.HostSide.arg1_eq m ρ c]

/-! ## Entering the third call -/

theorem v3_arg0 (c : Dev nD) : (V3 (F := Ideal) m ρ c main_arg0 : S10000x10000.Idx → EReal) = adj m c :=
  ((W3_arr m ρ c 0).trans (((dat1 (V2 m ρ) c).arrAt_in 0 rfl _).trans (A_eq1 (V2 m ρ) c 0))).trans (v2_arg0 m ρ c)

theorem v3_v9 (c : Dev nD) : (V3 (F := Ideal) m ρ c main_v9 : S1x2.Idx → EReal) = V1 m ρ c main_v9 :=
  (W3_of_ne m ρ c main_v9 (by decide)).trans (v2_v9 m ρ c)

/-- The projected hidden layer the second call leaves. -/
theorem v3_v11 (c : Dev nD) :
    (V3 (F := Ideal) m ρ c main_v11 : S10000x2.Idx → EReal)
      = fun i => hidden (cur (n0 := 10000) (n1 := 10000) (adj m c))
          (mm (cur (n0 := 10000) (n1 := 256) (feats m c)) (cur (n0 := 256) (n1 := 192) (V1 (F := Ideal) m ρ c main_v0)))
          (fun k : Fin 192 => (V1 (F := Ideal) m ρ c main_v2 : S1x192.Idx → EReal) (rc (0 : Fin 1) k))
          (cur (n0 := 192) (n1 := 2) (V1 (F := Ideal) m ρ c main_v7)) (row i) (col i) := by
  refine (W3_arr m ρ c 4).trans ((Cert.KernelIdeal.Region1.final (V2 m ρ) c).trans ?_)
  rw [v2_arg0 m ρ c, v2_v10 m ρ c, v2_v2 m ρ c, v2_v7 m ρ c]

/-! ## Leaving the third call, and the two slices -/

/-- The third call's output array: the whole network over the parameters as the first call finds them. -/
theorem w4_v12 (c : Dev nD) :
    (W4 (F := Ideal) m ρ c (Proc.devRef .tc main_v12) : S10000x2.Idx → EReal)
      = fun i => net (cur (n0 := 10000) (n1 := 10000) (adj m c)) (cur (n0 := 10000) (n1 := 256) (feats m c))
          (cur (n0 := 256) (n1 := 192) (V1 (F := Ideal) m ρ c main_v0))
          (fun k : Fin 192 => (V1 (F := Ideal) m ρ c main_v2 : S1x192.Idx → EReal) (rc (0 : Fin 1) k))
          (cur (n0 := 192) (n1 := 2) (V1 (F := Ideal) m ρ c main_v7))
          (fun q : Fin 2 => (V1 (F := Ideal) m ρ c main_v9 : S1x2.Idx → EReal) (rc (0 : Fin 1) q)) (row i) (col i) := by
  refine (W4_arr m ρ c 3).trans ((Cert.KernelIdeal.Region2.final (V3 m ρ) c).trans ?_)
  rw [v3_arg0 m ρ c, v3_v11 m ρ c, v3_v9 m ρ c]
  rfl

/-- … which are the fused parameters of the launch arguments. -/
theorem w4_v12_fused (c : Dev nD) :
    (W4 (F := Ideal) m ρ c (Proc.devRef .tc main_v12) : S10000x2.Idx → EReal) = fun i => fused m c (row i) (col i) := by
  rw [w4_v12 m ρ c, Cert.KernelIdeal.HostSide.v0_eq m ρ c, Cert.KernelIdeal.HostSide.v2_eq m ρ c, Cert.KernelIdeal.HostSide.v7_eq m ρ c, Cert.KernelIdeal.HostSide.v9_eq m ρ c]

/-- An index of a one-column array has column 0. -/
theorem col_zero (i : S10000x1.Idx) : (i 1).val = 0 := by have := ValueIdx.idx2_lt1 i; omega

/-- The first result: column 1 of the third call's output. -/
theorem w5_v13 (c : Dev nD) (i : S10000x1.Idx) :
    (W5 (F := Ideal) m ρ c (Proc.devRef .tc main_v13) : S10000x1.Idx → EReal) i = fused m c (row i) 1 := by
  have e : (W5 (F := Ideal) m ρ c (Proc.devRef .tc main_v13) : S10000x1.Idx → EReal)
      = extractStridedSlice S10000x1 ![0, 1] (W4 (F := Ideal) m ρ c (Proc.devRef .tc main_v12) : S10000x2.Idx → EReal) slices_S10000x2_S10000x1_0_1 := by
    show StableHlo.after hostOps3 (W4 m ρ c) (Proc.devRef .tc main_v13) = _
    after_results
  rw [e, w4_v12_fused m ρ c]
  refine (extractStridedSlice_apply _ _ _ i (rc (row i) (1 : Fin 2)) (fun a => ?_)).trans rfl
  match a with
  | ⟨0, _⟩ => show (i 0).val = 0 + (i 0).val; omega
  | ⟨1, _⟩ => show 1 = 1 + (i 1).val; rw [col_zero i]

/-- The second result: column 0 of the third call's output. -/
theorem w5_v14 (c : Dev nD) (i : S10000x1.Idx) :
    (W5 (F := Ideal) m ρ c (Proc.devRef .tc main_v14) : S10000x1.Idx → EReal) i = fused m c (row i) 0 := by
  have e : (W5 (F := Ideal) m ρ c (Proc.devRef .tc main_v14) : S10000x1.Idx → EReal)
      = extractStridedSlice S10000x1 ![0, 0] (W4 (F := Ideal) m ρ c (Proc.devRef .tc main_v12) : S10000x2.Idx → EReal) slices_S10000x2_S10000x1_0_0 := by
    show StableHlo.after hostOps3 (W4 m ρ c) (Proc.devRef .tc main_v14) = _
    after_results
  rw [e, w4_v12_fused m ρ c]
  refine (extractStridedSlice_apply _ _ _ i (rc (row i) (0 : Fin 2)) (fun a => ?_)).trans rfl
  match a with
  | ⟨0, _⟩ => show (i 0).val = 0 + (i 0).val; omega
  | ⟨1, _⟩ => show 0 = 0 + (i 1).val; rw [col_zero i]

end Cert.KernelIdeal.Value

end
-- ==== Proof.RefRead.lean ====
import proofs.«123875_g20933670601111_cont_8to1_1445_9_alg».proof.Proof.Gen.ReferenceIdeal.Read
import proofs.«123875_g20933670601111_cont_8to1_1445_9_alg».proof.Proof.GcnSpec
import Idealize.ShloMosaic.Lib.ValueIdx
import Idealize.ShloMosaic.PureOps.Ideal.Laws

noncomputable section

open Idealize.ShloMosaic Idealize.ShloMosaic.TcCoe Idealize.SL.Sem
open Cert.ReferenceIdeal Cert.ReferenceIdeal.Gen Cert.ReferenceIdeal.Read Cert.Gcn

namespace Cert.ReferenceIdeal.RefValue

/-- An index into a one-column array has column coordinate zero. -/
private theorem one_col (i : S10000x1.Idx) : (i 1).val = 0 := by
  have h := ValueIdx.idx2_lt1 i
  omega

/-! ## The network of hidden width 64, layer by layer -/

/-- The features times the first weights, at any index. -/
private theorem v11_eq (x1 : S10000x256.Idx → EReal) (x6 : S256x64.Idx → EReal) (j : S10000x64.Idx) :
    val_main_v11 (F := Ideal) x1 x6 j
      = mm (cur (n0 := 10000) (n1 := 256) x1) (cur (n0 := 256) (n1 := 64) x6) (row j) (col j) := by
  rw [val_main_v11_apply]
  show _ = ∑ l : Fin 256, cur (n0 := 10000) (n1 := 256) x1 (row j) l * cur (n0 := 256) (n1 := 64) x6 l (col j)
  refine Finset.sum_congr rfl fun k _ => ?_
  have el : lidx_main_v11 j k = rc (row j) k := funext fun a => by
    match a with | ⟨0, _⟩ => rfl | ⟨1, _⟩ => rfl
  have er : ridx_main_v11 j k = rc k (col j) := funext fun a => by
    match a with | ⟨0, _⟩ => rfl | ⟨1, _⟩ => rfl
  rw [el, er]

/-- The adjacency times the projected features, at any index. -/
private theorem v12_eq (x0 : S10000x10000.Idx → EReal) (x1 : S10000x256.Idx → EReal) (x6 : S256x64.Idx → EReal) (j : S10000x64.Idx) :
    val_main_v12 (F := Ideal) x0 x1 x6 j
      = mm (cur (n0 := 10000) (n1 := 10000) x0) (mm (cur (n0 := 10000) (n1 := 256) x1) (cur (n0 := 256) (n1 := 64) x6)) (row j) (col j) := by
  rw [val_main_v12_apply]
  show _ = ∑ l : Fin 10000, cur (n0 := 10000) (n1 := 10000) x0 (row j) l
      * mm (cur (n0 := 10000) (n1 := 256) x1) (cur (n0 := 256) (n1 := 64) x6) l (col j)
  refine Finset.sum_congr rfl fun k _ => ?_
  have el : lidx_main_v12 j k = rc (row j) k := funext fun a => by
    match a with | ⟨0, _⟩ => rfl | ⟨1, _⟩ => rfl
  rw [el, v11_eq]

/-- The hidden layer before the projection: the bias added, negatives clamped to zero. -/
private theorem v16_eq (x0 : S10000x10000.Idx → EReal) (x1 : S10000x256.Idx → EReal) (x6 : S256x64.Idx → EReal) (x7 : S64.Idx → EReal)
    (j : S10000x64.Idx) :
    val_main_v16 (F := Ideal) x0 x1 x6 x7 j
      = max (mm (cur (n0 := 10000) (n1 := 10000) x0) (mm (cur (n0 := 10000) (n1 := 256) x1) (cur (n0 := 256) (n1 := 64) x6)) (row j) (col j)
          + cur1 (n := 64) x7 (col j)) 0 := by
  rw [val_main_v16_apply, val_main_v15_apply, v12_eq, val_main_v14_apply, val_main_v13_apply, val_main_call1_v0_apply,
    val_main_call1_cst_apply]
  have e : idx_main_v13 (idx_main_v14 j) = ValueIdx.ix1 (col j) := funext fun a => by
    match a with | ⟨0, _⟩ => rfl
  rw [e]
  show max (_ + _) (Ideal.ofBits .f32 0x00000000#32) = _
  rw [Ideal.ofBits_zero_f32]

/-- The hidden layer projected onto the one output column. -/
private theorem v17_eq (x0 : S10000x10000.Idx → EReal) (x1 : S10000x256.Idx → EReal) (x6 : S256x64.Idx → EReal) (x7 : S64.Idx → EReal)
    (x8 : S64x1.Idx → EReal) (i : S10000x1.Idx) :
    val_main_v17 (F := Ideal) x0 x1 x6 x7 x8 i
      = hidden (cur (n0 := 10000) (n1 := 10000) x0) (mm (cur (n0 := 10000) (n1 := 256) x1) (cur (n0 := 256) (n1 := 64) x6))
          (cur1 (n := 64) x7) (cur (n0 := 64) (n1 := 1) x8) (row i) 0 := by
  rw [val_main_v17_apply]
  show _ = ∑ k : Fin 64, max (mm (cur (n0 := 10000) (n1 := 10000) x0)
      (mm (cur (n0 := 10000) (n1 := 256) x1) (cur (n0 := 256) (n1 := 64) x6)) (row i) k + cur1 (n := 64) x7 k) 0
      * cur (n0 := 64) (n1 := 1) x8 k 0
  refine Finset.sum_congr rfl fun k _ => ?_
  have er : ridx_main_v17 i k = rc k (0 : Fin 1) := funext fun a => by
    match a with
    | ⟨0, _⟩ => rfl
    | ⟨1, _⟩ => exact Fin.ext (one_col i)
  rw [er, v16_eq]

/-- The adjacency times the projected hidden layer. -/
private theorem v18_eq (x0 : S10000x10000.Idx → EReal) (x1 : S10000x256.Idx → EReal) (x6 : S256x64.Idx → EReal) (x7 : S64.Idx → EReal)
    (x8 : S64x1.Idx → EReal) (i : S10000x1.Idx) :
    val_main_v18 (F := Ideal) x0 x1 x6 x7 x8 i
      = mm (cur (n0 := 10000) (n1 := 10000) x0)
          (hidden (cur (n0 := 10000) (n1 := 10000) x0) (mm (cur (n0 := 10000) (n1 := 256) x1) (cur (n0 := 256) (n1 := 64) x6))
            (cur1 (n := 64) x7) (cur (n0 := 64) (n1 := 1) x8)) (row i) 0 := by
  rw [val_main_v18_apply]
  show _ = ∑ l : Fin 10000, cur (n0 := 10000) (n1 := 10000) x0 (row i) l
      * hidden (cur (n0 := 10000) (n1 := 10000) x0) (mm (cur (n0 := 10000) (n1 := 256) x1) (cur (n0 := 256) (n1 := 64) x6))
          (cur1 (n := 64) x7) (cur (n0 := 64) (n1 := 1) x8) l 0
  refine Finset.sum_congr rfl fun k _ => ?_
  have el : lidx_main_v18 i k = rc (row i) k := funext fun a => by
    match a with | ⟨0, _⟩ => rfl | ⟨1, _⟩ => rfl
  rw [el, v17_eq]

/-- The reference's first result (the wrapped network's output) at row `i`: the two-layer network of hidden width 64. -/
theorem y_apply (x0 : S10000x10000.Idx → EReal) (x1 : S10000x256.Idx → EReal) (x6 : S256x64.Idx → EReal) (x7 : S64.Idx → EReal)
    (x8 : S64x1.Idx → EReal) (x9 : S1.Idx → EReal) (i : S10000x1.Idx) :
    val_main_v21 (F := Ideal) x0 x1 x6 x7 x8 x9 i
      = net (cur (n0 := 10000) (n1 := 10000) x0) (cur (n0 := 10000) (n1 := 256) x1) (cur (n0 := 256) (n1 := 64) x6) (cur1 (n := 64) x7)
          (cur (n0 := 64) (n1 := 1) x8) (fun _ : Fin 1 => x9 (ValueIdx.ix1 (0 : Fin 1))) (row i) 0 := by
  rw [val_main_v21_apply, v18_eq, val_main_v20_apply, val_main_v19_apply]
  have e : idx_main_v19 (idx_main_v20 i) = ValueIdx.ix1 (0 : Fin 1) := funext fun a => by
    match a with | ⟨0, _⟩ => rfl
  rw [e]
  rfl

/-! ## The network of hidden width 128, layer by layer -/

/-- The features times the first weights, at any index. -/
private theorem v0_eq (x1 : S10000x256.Idx → EReal) (x2 : S256x128.Idx → EReal) (j : S10000x128.Idx) :
    val_main_v0 (F := Ideal) x1 x2 j
      = mm (cur (n0 := 10000) (n1 := 256) x1) (cur (n0 := 256) (n1 := 128) x2) (row j) (col j) := by
  rw [val_main_v0_apply]
  show _ = ∑ l : Fin 256, cur (n0 := 10000) (n1 := 256) x1 (row j) l * cur (n0 := 256) (n1 := 128) x2 l (col j)
  refine Finset.sum_congr rfl fun k _ => ?_
  have el : lidx_main_v0 j k = rc (row j) k := funext fun a => by
    match a with | ⟨0, _⟩ => rfl | ⟨1, _⟩ => rfl
  have er : ridx_main_v0 j k = rc k (col j) := funext fun a => by
    match a with | ⟨0, _⟩ => rfl | ⟨1, _⟩ => rfl
  rw [el, er]

/-- The adjacency times the projected features, at any index. -/
private theorem v1_eq (x0 : S10000x10000.Idx → EReal) (x1 : S10000x256.Idx → EReal) (x2 : S256x128.Idx → EReal) (j : S10000x128.Idx) :
    val_main_v1 (F := Ideal) x0 x1 x2 j
      = mm (cur (n0 := 10000) (n1 := 10000) x0) (mm (cur (n0 := 10000) (n1 := 256) x1) (cur (n0 := 256) (n1 := 128) x2)) (row j) (col j) := by
  rw [val_main_v1_apply]
  show _ = ∑ l : Fin 10000, cur (n0 := 10000) (n1 := 10000) x0 (row j) l
      * mm (cur (n0 := 10000) (n1 := 256) x1) (cur (n0 := 256) (n1 := 128) x2) l (col j)
  refine Finset.sum_congr rfl fun k _ => ?_
  have el : lidx_main_v1 j k = rc (row j) k := funext fun a => by
    match a with | ⟨0, _⟩ => rfl | ⟨1, _⟩ => rfl
  rw [el, v0_eq]

/-- The hidden layer before the projection: the bias added, negatives clamped to zero. -/
private theorem v5_eq (x0 : S10000x10000.Idx → EReal) (x1 : S10000x256.Idx → EReal) (x2 : S256x128.Idx → EReal) (x3 : S128.Idx → EReal)
    (j : S10000x128.Idx) :
    val_main_v5 (F := Ideal) x0 x1 x2 x3 j
      = max (mm (cur (n0 := 10000) (n1 := 10000) x0) (mm (cur (n0 := 10000) (n1 := 256) x1) (cur (n0 := 256) (n1 := 128) x2)) (row j) (col j)
          + cur1 (n := 128) x3 (col j)) 0 := by
  rw [val_main_v5_apply, val_main_v4_apply, v1_eq, val_main_v3_apply, val_main_v2_apply, val_main_call0_v0_apply,
    val_main_call0_cst_apply]
  have e : idx_main_v2 (idx_main_v3 j) = ValueIdx.ix1 (col j) := funext fun a => by
    match a with | ⟨0, _⟩ => rfl
  rw [e]
  show max (_ + _) (Ideal.ofBits .f32 0x00000000#32) = _
  rw [Ideal.ofBits_zero_f32]

/-- The hidden layer projected onto the one output column. -/
private theorem v6_eq (x0 : S10000x10000.Idx → EReal) (x1 : S10000x256.Idx → EReal) (x2 : S256x128.Idx → EReal) (x3 : S128.Idx → EReal)
    (x4 : S128x1.Idx → EReal) (i : S10000x1.Idx) :
    val_main_v6 (F := Ideal) x0 x1 x2 x3 x4 i
      = hidden (cur (n0 := 10000) (n1 := 10000) x0) (mm (cur (n0 := 10000) (n1 := 256) x1) (cur (n0 := 256) (n1 := 128) x2))
          (cur1 (n := 128) x3) (cur (n0 := 128) (n1 := 1) x4) (row i) 0 := by
  rw [val_main_v6_apply]
  show _ = ∑ k : Fin 128, max (mm (cur (n0 := 10000) (n1 := 10000) x0)
      (mm (cur (n0 := 10000) (n1 := 256) x1) (cur (n0 := 256) (n1 := 128) x2)) (row i) k + cur1 (n := 128) x3 k) 0
      * cur (n0 := 128) (n1 := 1) x4 k 0
  refine Finset.sum_congr rfl fun k _ => ?_
  have er : ridx_main_v6 i k = rc k (0 : Fin 1) := funext fun a => by
    match a with
    | ⟨0, _⟩ => rfl
    | ⟨1, _⟩ => exact Fin.ext (one_col i)
  rw [er, v5_eq]

/-- The adjacency times the projected hidden layer. -/
private theorem v7_eq (x0 : S10000x10000.Idx → EReal) (x1 : S10000x256.Idx → EReal) (x2 : S256x128.Idx → EReal) (x3 : S128.Idx → EReal)
    (x4 : S128x1.Idx → EReal) (i : S10000x1.Idx) :
    val_main_v7 (F := Ideal) x0 x1 x2 x3 x4 i
      = mm (cur (n0 := 10000) (n1 := 10000) x0)
          (hidden (cur (n0 := 10000) (n1 := 10000) x0) (mm (cur (n0 := 10000) (n1 := 256) x1) (cur (n0 := 256) (n1 := 128) x2))
            (cur1 (n := 128) x3) (cur (n0 := 128) (n1 := 1) x4)) (row i) 0 := by
  rw [val_main_v7_apply]
  show _ = ∑ l : Fin 10000, cur (n0 := 10000) (n1 := 10000) x0 (row i) l
      * hidden (cur (n0 := 10000) (n1 := 10000) x0) (mm (cur (n0 := 10000) (n1 := 256) x1) (cur (n0 := 256) (n1 := 128) x2))
          (cur1 (n := 128) x3) (cur (n0 := 128) (n1 := 1) x4) l 0
  refine Finset.sum_congr rfl fun k _ => ?_
  have el : lidx_main_v7 i k = rc (row i) k := funext fun a => by
    match a with | ⟨0, _⟩ => rfl | ⟨1, _⟩ => rfl
  rw [el, v6_eq]

/-- The reference's second result (the estimator's output) at row `i`: the two-layer network of hidden width 128. -/
theorem s_apply (x0 : S10000x10000.Idx → EReal) (x1 : S10000x256.Idx → EReal) (x2 : S256x128.Idx → EReal) (x3 : S128.Idx → EReal)
    (x4 : S128x1.Idx → EReal) (x5 : S1.Idx → EReal) (i : S10000x1.Idx) :
    val_main_v10 (F := Ideal) x0 x1 x2 x3 x4 x5 i
      = net (cur (n0 := 10000) (n1 := 10000) x0) (cur (n0 := 10000) (n1 := 256) x1) (cur (n0 := 256) (n1 := 128) x2) (cur1 (n := 128) x3)
          (cur (n0 := 128) (n1 := 1) x4) (fun _ : Fin 1 => x5 (ValueIdx.ix1 (0 : Fin 1))) (row i) 0 := by
  rw [val_main_v10_apply, v7_eq, val_main_v9_apply, val_main_v8_apply]
  have e : idx_main_v8 (idx_main_v9 i) = ValueIdx.ix1 (0 : Fin 1) := funext fun a => by
    match a with | ⟨0, _⟩ => rfl
  rw [e]
  rfl

end Cert.ReferenceIdeal.RefValue

end
-- ==== Proof.lean ====
/-
  A fused evaluation of two graph-convolution networks over one dense adjacency against their separate evaluation.

  The reference evaluates two two-layer networks over the same adjacency `A` and features `X`:
      s = A · relu(A · (X · We1) + be1) · We2 + be2      (hidden width 128)
      y = A · relu(A · (X · Wg1) + bg1) · Wg2 + bg2      (hidden width 64)
  and returns (y, s). The kernel runs both at once in three calls: T = X · [We1 | Wg1] (hidden width 192);
  U = relu(A · T + [be1 | bg1]) · W2 with W2 the 192 × 2 matrix carrying We2 and Wg2 on its diagonal blocks and
  zeros elsewhere; S = A · U + [be2 | bg2]; and returns columns 1 and 0 of S. Over the extended reals a change of float
  format is the identity and every product is the textbook sum, so column 0 of S is s and column 1 is y: a sum over
  the 192 hidden units splits into the first 128 and the last 64, and in each column one part multiplies by the zero
  block (Proof/GcnSpec.lean). Finiteness of the inputs is not used.

  The frames of the two kernel programs are the generated ones; the reference's is its generated run. The kernel's
  results are read off its run block by block (Proof/Region0.lean, Region1.lean, Region2.lean: each call's output array
  as one function of its operand arrays), through the host operations that build the fused parameters
  (Proof/HostSide.lean) and along the run's boundaries (Proof/KernelValue.lean); the reference's through its generated
  read-at-an-index lemmas (Proof/RefRead.lean).
-/
import proofs.«123875_g20933670601111_cont_8to1_1445_9_alg».proof.Defs
import proofs.«123875_g20933670601111_cont_8to1_1445_9_alg».proof.Proof.Gen.Kernel
import proofs.«123875_g20933670601111_cont_8to1_1445_9_alg».proof.Proof.Gen.Kernel.Frame
import proofs.«123875_g20933670601111_cont_8to1_1445_9_alg».proof.Proof.Gen.KernelIdeal
import proofs.«123875_g20933670601111_cont_8to1_1445_9_alg».proof.Proof.Gen.KernelIdeal.Frame
import proofs.«123875_g20933670601111_cont_8to1_1445_9_alg».proof.Proof.Gen.ReferenceIdeal
import proofs.«123875_g20933670601111_cont_8to1_1445_9_alg».proof.Proof.Gen.ReferenceIdeal.Run
import proofs.«123875_g20933670601111_cont_8to1_1445_9_alg».proof.Proof.Gen.ReferenceIdeal.Read
import proofs.«123875_g20933670601111_cont_8to1_1445_9_alg».proof.Proof.Gen.Pre_finite_inputs
import proofs.«123875_g20933670601111_cont_8to1_1445_9_alg».proof.Proof.GcnSpec
import proofs.«123875_g20933670601111_cont_8to1_1445_9_alg».proof.Proof.KernelRun
import proofs.«123875_g20933670601111_cont_8to1_1445_9_alg».proof.Proof.KernelValue
import proofs.«123875_g20933670601111_cont_8to1_1445_9_alg».proof.Proof.RefRead
import Idealize.ShloMosaic.Adequacy
import Idealize.ShloMosaic.Init

noncomputable section

namespace Cert.Proof

open Idealize.ShloMosaic Idealize.SL.Sem Cert.Gcn

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the two branch networks of the arguments at every row: the kernel's results are
    columns 1 and 0 of the fused network, which are the second and the first branch. -/
theorem algebraic : Cert.algebraic_KernelIdeal_ReferenceIdeal := by
  intro m ρ m' ρ' _ hagree
  refine ⟨fun c i => Cert.KernelIdeal.Value.fused m c (row i) 1, fun c i => Cert.KernelIdeal.Value.fused m c (row i) 0, ?_, ?_⟩
  · exact (θ_run Cert.KernelIdeal.defs _ _).mono
      (fun r h c => ⟨(h c).1.trans (funext (Cert.KernelIdeal.Value.w5_v13 m ρ c)),
        (h c).2.1.trans (funext (Cert.KernelIdeal.Value.w5_v14 m ρ c)), (h c).2.2⟩)
      (Cert.KernelIdeal.Gen.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9⟩ := hagree c
      rw [Cert.ReferenceIdeal.Read.val_main_v21_eq, a0, a1, a6, a7, a8, a9]
      funext i
      rw [Cert.ReferenceIdeal.RefValue.y_apply]
      exact (net_fused_col1 _ _ _ _ _ _ _ _ _ _ _).symm
    · obtain ⟨a0, a1, a2, a3, a4, a5, a6, a7, a8, a9⟩ := hagree c
      rw [Cert.ReferenceIdeal.Read.val_main_v10_eq, a0, a1, a2, a3, a4, a5]
      funext i
      rw [Cert.ReferenceIdeal.RefValue.s_apply]
      exact (net_fused_col0 _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
